-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x12x256x16 : Shape := ⟨4, ![1, 12, 256, 16]⟩
abbrev S200000x12 : Shape := ⟨2, ![200000, 12]⟩
abbrev S204x204 : Shape := ⟨2, ![204, 204]⟩
abbrev S204 : Shape := ⟨1, ![204]⟩
abbrev S204x12 : Shape := ⟨2, ![204, 12]⟩
abbrev S12 : Shape := ⟨1, ![12]⟩
abbrev S200000 : Shape := ⟨1, ![200000]⟩
abbrev S_ : Shape := ⟨0, ![]⟩

class Facts : Prop where
  bcast_S_S1x12x256x16 : S_.BroadcastsInDim S1x12x256x16 (![] : Fin 0 → Fin S1x12x256x16.rank)
  reducesTo_S1x12x256x16_S_d0_1_2_3 : S1x12x256x16.ReducesTo [0, 1, 2, 3] S_
  h_S_ : 0 < S_.numel
  bcast_S_S200000x12 : S_.BroadcastsInDim S200000x12 (![] : Fin 0 → Fin S200000x12.rank)
  reducesTo_S200000x12_S_d0_1 : S200000x12.ReducesTo [0, 1] S_
  bcast_S_S204x204 : S_.BroadcastsInDim S204x204 (![] : Fin 0 → Fin S204x204.rank)
  reducesTo_S204x204_S_d0_1 : S204x204.ReducesTo [0, 1] S_
  bcast_S_S204 : S_.BroadcastsInDim S204 (![] : Fin 0 → Fin S204.rank)
  reducesTo_S204_S_d0 : S204.ReducesTo [0] S_
  bcast_S_S204x12 : S_.BroadcastsInDim S204x12 (![] : Fin 0 → Fin S204x12.rank)
  reducesTo_S204x12_S_d0_1 : S204x12.ReducesTo [0, 1] S_
  bcast_S_S12 : S_.BroadcastsInDim S12 (![] : Fin 0 → Fin S12.rank)
  reducesTo_S12_S_d0 : S12.ReducesTo [0] S_
  bcast_S_S200000 : S_.BroadcastsInDim S200000 (![] : Fin 0 → Fin S200000.rank)
  reducesTo_S200000_S_d0 : S200000.ReducesTo [0] S_

variable [Facts]

def fn_part2 {F : FTy → Type} [FloatOps F] (main_v28 : IVec S_ 1) (main_v33 : IVec S200000 1) : IVec S_ 1 :=
  let main_c_12 : IVec S_ 1 := constantI S_ 1 1#1
  let main_v34 : IVec S_ 1 := (fun x v => Host.reduce IntOp.andi x v reducesTo_S200000_S_d0 h_S_) main_v33 main_c_12
  let main_v35 : IVec S_ 1 := andi main_v28 main_v34
  main_v35

def fn_part1 {F : FTy → Type} [FloatOps F] (main_arg4 : FVec F S204x12 .f32) (main_arg5 : FVec F S12 .f32) (main_arg6 : IVec S200000 32) (main_v13 : IVec S_ 1) (main_v16 : IVec S204 1) : IVec S_ 1 :=
  let main_c_5 : IVec S_ 1 := constantI S_ 1 1#1
  let main_v17 : IVec S_ 1 := (fun x v => Host.reduce IntOp.andi x v reducesTo_S204_S_d0 h_S_) main_v16 main_c_5
  let main_v18 : IVec S_ 1 := andi main_v13 main_v17
  let main_v19 : FVec F S204x12 .f32 := Host.absf main_arg4
  let main_cst_6 : FVec F S_ .f32 := constant S_ .f32 0x7F800000#32
  let main_v20 : FVec F S204x12 .f32 := broadcastInDim S204x12 ![] bcast_S_S204x12 main_cst_6
  let main_v21 : IVec S204x12 1 := cmpf .olt main_v19 main_v20
  let main_c_7 : IVec S_ 1 := constantI S_ 1 1#1
  let main_v22 : IVec S_ 1 := (fun x v => Host.reduce IntOp.andi x v reducesTo_S204x12_S_d0_1 h_S_) main_v21 main_c_7
  let main_v23 : IVec S_ 1 := andi main_v18 main_v22
  let main_v24 : FVec F S12 .f32 := Host.absf main_arg5
  let main_cst_8 : FVec F S_ .f32 := constant S_ .f32 0x7F800000#32
  let main_v25 : FVec F S12 .f32 := broadcastInDim S12 ![] bcast_S_S12 main_cst_8
  let main_v26 : IVec S12 1 := cmpf .olt main_v24 main_v25
  let main_c_9 : IVec S_ 1 := constantI S_ 1 1#1
  let main_v27 : IVec S_ 1 := (fun x v => Host.reduce IntOp.andi x v reducesTo_S12_S_d0 h_S_) main_v26 main_c_9
  let main_v28 : IVec S_ 1 := andi main_v23 main_v27
  let main_c_10 : IVec S_ 32 := constantI S_ 32 0#32
  let main_v29 : IVec S200000 32 := broadcastInDim S200000 ![] bcast_S_S200000 main_c_10
  let main_v30 : IVec S200000 1 := cmpi .sge main_arg6 main_v29
  let main_c_11 : IVec S_ 32 := constantI S_ 32 256#32
  let main_v31 : IVec S200000 32 := broadcastInDim S200000 ![] bcast_S_S200000 main_c_11
  let main_v32 : IVec S200000 1 := cmpi .slt main_arg6 main_v31
  let main_v33 : IVec S200000 1 := andi main_v30 main_v32
  fn_part2 (F := F) main_v28 main_v33

def fn {F : FTy → Type} [FloatOps F] (main_arg0 : FVec F S1x12x256x16 .f32) (main_arg1 : FVec F S200000x12 .f32) (main_arg2 : FVec F S204x204 .f32) (main_arg3 : FVec F S204 .f32) (main_arg4 : FVec F S204x12 .f32) (main_arg5 : FVec F S12 .f32) (main_arg6 : IVec S200000 32) : IVec S_ 1 :=
  let main_v0 : FVec F S1x12x256x16 .f32 := Host.absf main_arg0
  let main_cst : FVec F S_ .f32 := constant S_ .f32 0x7F800000#32
  let main_v1 : FVec F S1x12x256x16 .f32 := broadcastInDim S1x12x256x16 ![] bcast_S_S1x12x256x16 main_cst
  let main_v2 : IVec S1x12x256x16 1 := cmpf .olt main_v0 main_v1
  let main_c : IVec S_ 1 := constantI S_ 1 1#1
  let main_v3 : IVec S_ 1 := (fun x v => Host.reduce IntOp.andi x v reducesTo_S1x12x256x16_S_d0_1_2_3 h_S_) main_v2 main_c
  let main_v4 : FVec F S200000x12 .f32 := Host.absf main_arg1
  let main_cst_0 : FVec F S_ .f32 := constant S_ .f32 0x7F800000#32
  let main_v5 : FVec F S200000x12 .f32 := broadcastInDim S200000x12 ![] bcast_S_S200000x12 main_cst_0
  let main_v6 : IVec S200000x12 1 := cmpf .olt main_v4 main_v5
  let main_c_1 : IVec S_ 1 := constantI S_ 1 1#1
  let main_v7 : IVec S_ 1 := (fun x v => Host.reduce IntOp.andi x v reducesTo_S200000x12_S_d0_1 h_S_) main_v6 main_c_1
  let main_v8 : IVec S_ 1 := andi main_v3 main_v7
  let main_v9 : FVec F S204x204 .f32 := Host.absf main_arg2
  let main_cst_2 : FVec F S_ .f32 := constant S_ .f32 0x7F800000#32
  let main_v10 : FVec F S204x204 .f32 := broadcastInDim S204x204 ![] bcast_S_S204x204 main_cst_2
  let main_v11 : IVec S204x204 1 := cmpf .olt main_v9 main_v10
  let main_c_3 : IVec S_ 1 := constantI S_ 1 1#1
  let main_v12 : IVec S_ 1 := (fun x v => Host.reduce IntOp.andi x v reducesTo_S204x204_S_d0_1 h_S_) main_v11 main_c_3
  let main_v13 : IVec S_ 1 := andi main_v8 main_v12
  let main_v14 : FVec F S204 .f32 := Host.absf main_arg3
  let main_cst_4 : FVec F S_ .f32 := constant S_ .f32 0x7F800000#32
  let main_v15 : FVec F S204 .f32 := broadcastInDim S204 ![] bcast_S_S204 main_cst_4
  let main_v16 : IVec S204 1 := cmpf .olt main_v14 main_v15
  fn_part1 (F := F) main_arg4 main_arg5 main_arg6 main_v13 main_v16
-- ==== Kernel.lean ====
abbrev S1x12x256x16 : Shape := ⟨4, ![1, 12, 256, 16]⟩
abbrev S200000x12 : Shape := ⟨2, ![200000, 12]⟩
abbrev S204x204 : Shape := ⟨2, ![204, 204]⟩
abbrev S204 : Shape := ⟨1, ![204]⟩
abbrev S204x12 : Shape := ⟨2, ![204, 12]⟩
abbrev S12 : Shape := ⟨1, ![12]⟩
abbrev S200000 : Shape := ⟨1, ![200000]⟩
abbrev S1x256x12x16 : Shape := ⟨4, ![1, 256, 12, 16]⟩
abbrev S1x256x192 : Shape := ⟨3, ![1, 256, 192]⟩
abbrev S256x192 : Shape := ⟨2, ![256, 192]⟩
abbrev S192x204 : Shape := ⟨2, ![192, 204]⟩
abbrev S12x204 : Shape := ⟨2, ![12, 204]⟩
abbrev S256x204 : Shape := ⟨2, ![256, 204]⟩
abbrev S1x204 : Shape := ⟨2, ![1, 204]⟩
abbrev S204x256 : Shape := ⟨2, ![204, 256]⟩
abbrev S12x200000 : Shape := ⟨2, ![12, 200000]⟩
abbrev S1x200000 : Shape := ⟨2, ![1, 200000]⟩
abbrev S1x4096 : Shape := ⟨2, ![1, 4096]⟩
abbrev S12x4096 : Shape := ⟨2, ![12, 4096]⟩
abbrev S256x4096 : Shape := ⟨2, ![256, 4096]⟩
abbrev S204x4096 : Shape := ⟨2, ![204, 4096]⟩
abbrev S12x1 : Shape := ⟨2, ![12, 1]⟩
abbrev S1x200000x12 : Shape := ⟨3, ![1, 200000, 12]⟩

abbrev nBuf : Space → Nat
  | .hbm => 27
  | .vmem => 10
  | .smem => 0
  | _ => 0

abbrev bufTy : (tb : Table) → Fin (tcTables nBuf tb) → BufTy
  | .hbm, ⟨0, _⟩ => ⟨S1x12x256x16, .f32⟩
  | .hbm, ⟨1, _⟩ => ⟨S200000x12, .f32⟩
  | .hbm, ⟨2, _⟩ => ⟨S204x204, .f32⟩
  | .hbm, ⟨3, _⟩ => ⟨S204, .f32⟩
  | .hbm, ⟨4, _⟩ => ⟨S204x12, .f32⟩
  | .hbm, ⟨5, _⟩ => ⟨S12, .f32⟩
  | .hbm, ⟨6, _⟩ => ⟨S200000, .i32⟩
  | .hbm, ⟨7, _⟩ => ⟨S1x256x12x16, .f32⟩
  | .hbm, ⟨8, _⟩ => ⟨S1x256x192, .f32⟩
  | .hbm, ⟨9, _⟩ => ⟨S256x192, .f32⟩
  | .hbm, ⟨10, _⟩ => ⟨S192x204, .f32⟩
  | .hbm, ⟨11, _⟩ => ⟨S12x204, .f32⟩
  | .hbm, ⟨12, _⟩ => ⟨S256x204, .f32⟩
  | .hbm, ⟨13, _⟩ => ⟨S1x204, .f32⟩
  | .hbm, ⟨14, _⟩ => ⟨S256x204, .f32⟩
  | .hbm, ⟨15, _⟩ => ⟨S256x204, .f32⟩
  | .hbm, ⟨16, _⟩ => ⟨S204x256, .f32⟩
  | .hbm, ⟨17, _⟩ => ⟨S204x256, .bf16⟩
  | .hbm, ⟨18, _⟩ => ⟨S204x12, .f32⟩
  | .hbm, ⟨19, _⟩ => ⟨S204x12, .bf16⟩
  | .hbm, ⟨20, _⟩ => ⟨S12x204, .f32⟩
  | .hbm, ⟨21, _⟩ => ⟨S12x204, .bf16⟩
  | .hbm, ⟨22, _⟩ => ⟨S12x200000, .f32⟩
  | .hbm, ⟨23, _⟩ => ⟨S1x200000, .i32⟩
  | .hbm, ⟨24, _⟩ => ⟨S12x200000, .f32⟩
  | .hbm, ⟨25, _⟩ => ⟨S200000x12, .f32⟩
  | .hbm, ⟨26, _⟩ => ⟨S1x200000x12, .f32⟩
  | .local _ .vmem, ⟨0, _⟩ => ⟨S1x4096, .i32⟩
  | .local _ .vmem, ⟨1, _⟩ => ⟨S1x4096, .i32⟩
  | .local _ .vmem, ⟨2, _⟩ => ⟨S12x4096, .f32⟩
  | .local _ .vmem, ⟨3, _⟩ => ⟨S12x4096, .f32⟩
  | .local _ .vmem, ⟨4, _⟩ => ⟨S204x256, .bf16⟩
  | .local _ .vmem, ⟨5, _⟩ => ⟨S204x12, .bf16⟩
  | .local _ .vmem, ⟨6, _⟩ => ⟨S12x204, .bf16⟩
  | .local _ .vmem, ⟨7, _⟩ => ⟨S12, .f32⟩
  | .local _ .vmem, ⟨8, _⟩ => ⟨S12x4096, .f32⟩
  | .local _ .vmem, ⟨9, _⟩ => ⟨S12x4096, .f32⟩
  | _, _ => ⟨S1x12x256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S204x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S204x12 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x204 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S12x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S1x12x256x16_S1x256x12x16_0_2_1_3 : S1x12x256x16.Transposes [0, 2, 1, 3] S1x256x12x16
  shapeCasts_S1x256x12x16_S1x256x192 : S1x256x12x16.ShapeCasts S1x256x192
  shapeCasts_S1x256x192_S256x192 : S1x256x192.ShapeCasts S256x192
  slices_S204x204_S192x204_0_0 : S204x204.Slices ![0, 0] S192x204
  slices_S204x204_S12x204_192_0 : S204x204.Slices ![192, 0] S12x204
  bcast_S204_S1x204_1 : S204.BroadcastsInDim S1x204 (![1] : Fin 1 → Fin S1x204.rank)
  bcast_S1x204_S256x204_0_1 : S1x204.BroadcastsInDim S256x204 (![0, 1] : Fin 2 → Fin S256x204.rank)
  transposes_S256x204_S204x256_1_0 : S256x204.Transposes [1, 0] S204x256
  bitsLt_bf16_f32 : FTy.bits .bf16 < FTy.bits .f32
  transposes_S12x204_S204x12_1_0 : S12x204.Transposes [1, 0] S204x12
  transposes_S204x12_S12x204_1_0 : S204x12.Transposes [1, 0] S12x204
  transposes_S200000x12_S12x200000_1_0 : S200000x12.Transposes [1, 0] S12x200000
  shapeCasts_S200000_S1x200000 : S200000.ShapeCasts S1x200000
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  iota_S256x4096_d0_w32 : S256x4096.Iotas .tc 32 [0]
  broadcasts_S1x4096_S256x4096 : S1x4096.Broadcasts S256x4096
  natLt_1_32 : 1 < 32
  inb_S204x256_S204x256_0_0 : ∀ a, (![0, 0] : Fin 2 → Nat) a + S204x256.size a ≤ S204x256.size a
  h_S204x256 : 0 < S204x256.numel
  shapeCasts_S204x256_S204x256 : S204x256.ShapeCasts S204x256
  inb_S12x4096_S12x4096_0_0 : ∀ a, (![0, 0] : Fin 2 → Nat) a + S12x4096.size a ≤ S12x4096.size a
  h_S12x4096 : 0 < S12x4096.numel
  shapeCasts_S12x4096_S12x4096 : S12x4096.ShapeCasts S12x4096
  inb_S204x12_S204x12_0_0 : ∀ a, (![0, 0] : Fin 2 → Nat) a + S204x12.size a ≤ S204x12.size a
  h_S204x12 : 0 < S204x12.numel
  shapeCasts_S204x12_S204x12 : S204x12.ShapeCasts S204x12
  inb_S12x204_S12x204_0_0 : ∀ a, (![0, 0] : Fin 2 → Nat) a + S12x204.size a ≤ S12x204.size a
  h_S12x204 : 0 < S12x204.numel
  shapeCasts_S12x204_S12x204 : S12x204.ShapeCasts S12x204
  inb_S12_S12_0 : ∀ a, (![0] : Fin 1 → Nat) a + S12.size a ≤ S12.size a
  h_S12 : 0 < S12.numel
  shapeCasts_S12_S12x1 : S12.ShapeCasts S12x1
  broadcasts_S12x1_S12x4096 : S12x1.Broadcasts S12x4096
  transposes_S12x200000_S200000x12_1_0 : S12x200000.Transposes [1, 0] S200000x12
  bcast_S200000x12_S1x200000x12_1_2 : S200000x12.BroadcastsInDim S1x200000x12 (![1, 2] : Fin 2 → Fin S1x200000x12.rank)
  dot_S256x192_S192x204_S256x204_1_0_0_1_n_n_wf : DotDims.WF S256x192 S192x204 S256x204 [1] [0] [0] [1] [] []
  dot_S204x256_S256x4096_S204x4096_1_0_0_1_n_n_wf : DotDims.WF S204x256 S256x4096 S204x4096 [1] [0] [0] [1] [] []
  dot_S204x12_S12x4096_S204x4096_1_0_0_1_n_n_wf : DotDims.WF S204x12 S12x4096 S204x4096 [1] [0] [0] [1] [] []
  dot_S12x204_S204x4096_S12x4096_1_0_0_1_n_n_wf : DotDims.WF S12x204 S204x4096 S12x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x4096.size a < S1x200000.size a
  hwx0_0 : ∀ i : grid0.Coords, EltTy.bits .i32 = 32 ∨ (Rect.unit (s := S1x200000) (fun a => cc0_transform_0 i a * S1x4096.size a) (fun a => (Pipeline.Clip.of (cc0_transform_0 i a) (S1x4096.size a) (S1x200000.size a)).extent (S1x4096.size a)) fun a => Pipeline.Clip.inb (Pipeline.Clip.ok_of (hstart0_0 i a))).WholeWords (EltTy.packing .i32)
  hwxs0_0 : ∀ i : grid0.Coords, EltTy.bits .i32 = 32 ∨ (Rect.unit (s := S1x4096) (fun _ => 0) (fun a => (Pipeline.Clip.of (cc0_transform_0 i a) (S1x4096.size a) (S1x200000.size a)).extent (S1x4096.size a)) fun a => (Nat.zero_add _).trans_le (Pipeline.Clip.extent_le (Pipeline.Clip.ok_of (hstart0_0 i a)))).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S12x4096.size a < S12x200000.size a
  hwx0_1 : ∀ i : grid0.Coords, EltTy.bits .f32 = 32 ∨ (Rect.unit (s := S12x200000) (fun a => cc0_transform_1 i a * S12x4096.size a) (fun a => (Pipeline.Clip.of (cc0_transform_1 i a) (S12x4096.size a) (S12x200000.size a)).extent (S12x4096.size a)) fun a => Pipeline.Clip.inb (Pipeline.Clip.ok_of (hstart0_1 i a))).WholeWords (EltTy.packing .f32)
  hwxs0_1 : ∀ i : grid0.Coords, EltTy.bits .f32 = 32 ∨ (Rect.unit (s := S12x4096) (fun _ => 0) (fun a => (Pipeline.Clip.of (cc0_transform_1 i a) (S12x4096.size a) (S12x200000.size a)).extent (S12x4096.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S204x256.size a ≤ S204x256.size a
  hwx0_2 : ∀ i : grid0.Coords, EltTy.bits .bf16 = 32 ∨ (Rect.block (s := S204x256) S204x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S204x12.size a ≤ S204x12.size a
  hwx0_3 : ∀ i : grid0.Coords, EltTy.bits .bf16 = 32 ∨ (Rect.block (s := S204x12) S204x12.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12x204.size a ≤ S12x204.size a
  hwx0_4 : ∀ i : grid0.Coords, EltTy.bits .bf16 = 32 ∨ (Rect.block (s := S12x204) S12x204.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S12.size a ≤ S12.size a
  hwx0_5 : ∀ i : grid0.Coords, EltTy.bits .f32 = 32 ∨ (Rect.block (s := S12) S12.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S12x4096.size a < S12x200000.size a
  hwx0_6 : ∀ i : grid0.Coords, EltTy.bits .f32 = 32 ∨ (Rect.unit (s := S12x200000) (fun a => cc0_transform_6 i a * S12x4096.size a) (fun a => (Pipeline.Clip.of (cc0_transform_6 i a) (S12x4096.size a) (S12x200000.size a)).extent (S12x4096.size a)) fun a => Pipeline.Clip.inb (Pipeline.Clip.ok_of (hstart0_6 i a))).WholeWords (EltTy.packing .f32)
  hwxs0_6 : ∀ i : grid0.Coords, EltTy.bits .f32 = 32 ∨ (Rect.unit (s := S12x4096) (fun _ => 0) (fun a => (Pipeline.Clip.of (cc0_transform_6 i a) (S12x4096.size a) (S12x200000.size a)).extent (S12x4096.size a)) fun a => (Nat.zero_add _).trans_le (Pipeline.Clip.extent_le (Pipeline.Clip.ok_of (hstart0_6 i a)))).WholeWords (EltTy.packing .f32)

variable [Facts₀]

def dot_S256x192_S192x204_S256x204_1_0_0_1_n_n : DotDims S256x192 S192x204 S256x204 where
  lhsContracting := [1]
  rhsContracting := [0]
  lhsNonContracting := [0]
  rhsNonContracting := [1]
  lhsBatch := []
  rhsBatch := []
  wf := dot_S256x192_S192x204_S256x204_1_0_0_1_n_n_wf
def dot_S204x256_S256x4096_S204x4096_1_0_0_1_n_n : DotDims S204x256 S256x4096 S204x4096 where
  lhsContracting := [1]
  rhsContracting := [0]
  lhsNonContracting := [0]
  rhsNonContracting := [1]
  lhsBatch := []
  rhsBatch := []
  wf := dot_S204x256_S256x4096_S204x4096_1_0_0_1_n_n_wf
def dot_S204x12_S12x4096_S204x4096_1_0_0_1_n_n : DotDims S204x12 S12x4096 S204x4096 where
  lhsContracting := [1]
  rhsContracting := [0]
  lhsNonContracting := [0]
  rhsNonContracting := [1]
  lhsBatch := []
  rhsBatch := []
  wf := dot_S204x12_S12x4096_S204x4096_1_0_0_1_n_n_wf
def dot_S12x204_S204x4096_S12x4096_1_0_0_1_n_n : DotDims S12x204 S204x4096 S12x4096 where
  lhsContracting := [1]
  rhsContracting := [0]
  lhsNonContracting := [0]
  rhsNonContracting := [1]
  lhsBatch := []
  rhsBatch := []
  wf := dot_S12x204_S204x4096_S12x4096_1_0_0_1_n_n_wf

abbrev win0_0 : Pipeline.Window sig grid0 :=
  Pipeline.Window.ofSpecClip (Memref.whole main_v16) S1x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v15) S12x4096.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v10) S204x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S204x12.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S12x204.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S12.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_v17) S12x4096.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1x12x256x16 : Shape := ⟨4, ![1, 12, 256, 16]⟩
abbrev S200000x12 : Shape := ⟨2, ![200000, 12]⟩
abbrev S204x204 : Shape := ⟨2, ![204, 204]⟩
abbrev S204 : Shape := ⟨1, ![204]⟩
abbrev S204x12 : Shape := ⟨2, ![204, 12]⟩
abbrev S12 : Shape := ⟨1, ![12]⟩
abbrev S200000 : Shape := ⟨1, ![200000]⟩
abbrev S1x256x12x16 : Shape := ⟨4, ![1, 256, 12, 16]⟩
abbrev S1x256x192 : Shape := ⟨3, ![1, 256, 192]⟩
abbrev S_ : Shape := ⟨0, ![]⟩
abbrev S200000x1 : Shape := ⟨2, ![200000, 1]⟩
abbrev S1 : Shape := ⟨1, ![1]⟩
abbrev S1x1 : Shape := ⟨2, ![1, 1]⟩
abbrev S1x200000x192 : Shape := ⟨3, ![1, 200000, 192]⟩
abbrev S1x200000x12 : Shape := ⟨3, ![1, 200000, 12]⟩
abbrev S1x200000x204 : Shape := ⟨3, ![1, 200000, 204]⟩
abbrev S1x1x204 : Shape := ⟨3, ![1, 1, 204]⟩
abbrev S1x1x12 : Shape := ⟨3, ![1, 1, 12]⟩

abbrev nBuf : Space → Nat
  | .hbm => 45
  | .vmem => 0
  | .smem => 0
  | _ => 0

abbrev bufTy : (tb : Table) → Fin (tcTables nBuf tb) → BufTy
  | .hbm, ⟨0, _⟩ => ⟨S1x12x256x16, .f32⟩
  | .hbm, ⟨1, _⟩ => ⟨S200000x12, .f32⟩
  | .hbm, ⟨2, _⟩ => ⟨S204x204, .f32⟩
  | .hbm, ⟨3, _⟩ => ⟨S204, .f32⟩
  | .hbm, ⟨4, _⟩ => ⟨S204x12, .f32⟩
  | .hbm, ⟨5, _⟩ => ⟨S12, .f32⟩
  | .hbm, ⟨6, _⟩ => ⟨S200000, .i32⟩
  | .hbm, ⟨7, _⟩ => ⟨S1x256x12x16, .f32⟩
  | .hbm, ⟨8, _⟩ => ⟨S1x256x192, .f32⟩
  | .hbm, ⟨9, _⟩ => ⟨S_, .i32⟩
  | .hbm, ⟨10, _⟩ => ⟨S200000, .i32⟩
  | .hbm, ⟨11, _⟩ => ⟨S200000, .i1⟩
  | .hbm, ⟨12, _⟩ => ⟨S_, .i32⟩
  | .hbm, ⟨13, _⟩ => ⟨S200000, .i32⟩
  | .hbm, ⟨14, _⟩ => ⟨S200000, .i32⟩
  | .hbm, ⟨15, _⟩ => ⟨S200000, .i32⟩
  | .hbm, ⟨16, _⟩ => ⟨S200000x1, .i32⟩
  | .hbm, ⟨17, _⟩ => ⟨S1, .i32⟩
  | .hbm, ⟨18, _⟩ => ⟨S_, .i32⟩
  | .hbm, ⟨19, _⟩ => ⟨S200000x1, .i32⟩
  | .hbm, ⟨20, _⟩ => ⟨S200000x1, .i1⟩
  | .hbm, ⟨21, _⟩ => ⟨S1x1, .i32⟩
  | .hbm, ⟨22, _⟩ => ⟨S200000x1, .i32⟩
  | .hbm, ⟨23, _⟩ => ⟨S200000x1, .i1⟩
  | .hbm, ⟨24, _⟩ => ⟨S200000x1, .i1⟩
  | .hbm, ⟨25, _⟩ => ⟨S_, .i1⟩
  | .hbm, ⟨26, _⟩ => ⟨S200000, .i1⟩
  | .hbm, ⟨27, _⟩ => ⟨S1x200000x192, .f32⟩
  | .hbm, ⟨28, _⟩ => ⟨S1x200000x192, .i1⟩
  | .hbm, ⟨29, _⟩ => ⟨S_, .f32⟩
  | .hbm, ⟨30, _⟩ => ⟨S1x200000x192, .f32⟩
  | .hbm, ⟨31, _⟩ => ⟨S1x200000x192, .f32⟩
  | .hbm, ⟨32, _⟩ => ⟨S1x200000x12, .f32⟩
  | .hbm, ⟨33, _⟩ => ⟨S1x200000x204, .f32⟩
  | .hbm, ⟨34, _⟩ => ⟨S1x200000x204, .f32⟩
  | .hbm, ⟨35, _⟩ => ⟨S1x1x204, .f32⟩
  | .hbm, ⟨36, _⟩ => ⟨S1x200000x204, .f32⟩
  | .hbm, ⟨37, _⟩ => ⟨S1x200000x204, .f32⟩
  | .hbm, ⟨38, _⟩ => ⟨S_, .f32⟩
  | .hbm, ⟨39, _⟩ => ⟨S1x200000x204, .f32⟩
  | .hbm, ⟨40, _⟩ => ⟨S1x200000x204, .f32⟩
  | .hbm, ⟨41, _⟩ => ⟨S1x200000x12, .f32⟩
  | .hbm, ⟨42, _⟩ => ⟨S1x1x12, .f32⟩
  | .hbm, ⟨43, _⟩ => ⟨S1x200000x12, .f32⟩
  | .hbm, ⟨44, _⟩ => ⟨S1x200000x12, .f32⟩
  | _, _ => ⟨S1x12x256x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_call1_cst : Ref sig .tc := ⟨.hbm, 38, rfl⟩
abbrev main_call1_v0 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩

abbrev nD : Nat := 1
abbrev τ : Topo := Topo.v7x

variable {F : FTy → Type} [FloatOps F]

class Facts₀ : Prop where
  transposes_S1x12x256x16_S1x256x12x16_0_2_1_3 : S1x12x256x16.Transposes [0, 2, 1, 3] S1x256x12x16
  shapeCasts_S1x256x12x16_S1x256x192 : S1x256x12x16.ShapeCasts S1x256x192
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  bcast_S200000_S1x200000x192_1 : S200000.BroadcastsInDim S1x200000x192 (![1] : Fin 1 → Fin S1x200000x192.rank)
  bcast_S_S1x200000x192 : S_.BroadcastsInDim S1x200000x192 (![] : Fin 0 → Fin S1x200000x192.rank)
  bcast_S200000x12_S1x200000x12_1_2 : S200000x12.BroadcastsInDim S1x200000x12 (![1, 2] : Fin 2 → Fin S1x200000x12.rank)
  concatenates_S1x200000x192_S1x200000x12_S1x200000x204_d2 : Shape.Concatenates [S1x200000x192, S1x200000x12] S1x200000x204 2
  bcast_S204_S1x1x204_2 : S204.BroadcastsInDim S1x1x204 (![2] : Fin 1 → Fin S1x1x204.rank)
  bcast_S1x1x204_S1x200000x204_0_1_2 : S1x1x204.BroadcastsInDim S1x200000x204 (![0, 1, 2] : Fin 3 → Fin S1x200000x204.rank)
  bcast_S_S1x200000x204 : S_.BroadcastsInDim S1x200000x204 (![] : Fin 0 → Fin S1x200000x204.rank)
  bcast_S12_S1x1x12_2 : S12.BroadcastsInDim S1x1x12 (![2] : Fin 1 → Fin S1x1x12.rank)
  bcast_S1x1x12_S1x200000x12_0_1_2 : S1x1x12.BroadcastsInDim S1x200000x12 (![0, 1, 2] : Fin 3 → Fin S1x200000x12.rank)
  gather_S1x256x192_S200000x1_S1x200000x192_02_1_n_n_1_1_11192_wf : GatherDims.WF S1x256x192 S200000x1 S1x200000x192 [0, 2] [1] [] [1] [] 1 ![1, 1, 192]
  dot_S1x200000x204_S204x204_S1x200000x204_2_0_01_1_n_n_wf : DotDims.WF S1x200000x204 S204x204 S1x200000x204 [2] [0] [0, 1] [1] [] []
  dot_S1x200000x204_S204x12_S1x200000x12_2_0_01_1_n_n_wf : DotDims.WF S1x200000x204 S204x12 S1x200000x12 [2] [0] [0, 1] [1] [] []

variable [Facts₀]

def gather_S1x256x192_S200000x1_S1x200000x192_02_1_n_n_1_1_11192 : GatherDims S1x256x192 S200000x1 S1x200000x192 where
  offsetDims := [0, 2]
  collapsedSliceDims := [1]
  operandBatchingDims := []
  startIndicesBatchingDims := []
  startIndexMap := [1]
  indexVectorDim := 1
  sliceSizes := ![1, 1, 192]
  wf := gather_S1x256x192_S200000x1_S1x200000x192_02_1_n_n_1_1_11192_wf
def dot_S1x200000x204_S204x204_S1x200000x204_2_0_01_1_n_n : DotDims S1x200000x204 S204x204 S1x200000x204 where
  lhsContracting := [2]
  rhsContracting := [0]
  lhsNonContracting := [0, 1]
  rhsNonContracting := [1]
  lhsBatch := []
  rhsBatch := []
  wf := dot_S1x200000x204_S204x204_S1x200000x204_2_0_01_1_n_n_wf
def dot_S1x200000x204_S204x12_S1x200000x12_2_0_01_1_n_n : DotDims S1x200000x204 S204x12 S1x200000x12 where
  lhsContracting := [2]
  rhsContracting := [0]
  lhsNonContracting := [0, 1]
  rhsNonContracting := [1]
  lhsBatch := []
  rhsBatch := []
  wf := dot_S1x200000x204_S204x12_S1x200000x12_2_0_01_1_n_n_wf

class Facts : Prop extends Facts₀ where

variable [Facts]
-- ==== Proof.Spec.lean ====
/-
  The readout as mathematics, over the extended reals.

  A node n belongs to patch p(n) (its index word read signed and clamped into 0..255).  Its input row has 204 entries:
  the 192 flattened features of its patch, entry i = 16·t + f being mixer_x[0, t, p(n), f], followed by its own
  12 features.  The hidden layer is relu(row · W1 + b1), the result hidden · W2 + b2.

  Two arrangements of that one function are stated here.  `outR` is the direct one.  `outK` first folds the patch
  part of the first layer and the bias into a table T[p, j] = Σ_{i<192} patchfeat[p, i]·W1[i, j] + b1[j], then adds the
  node's own part Σ_{t<12} W1[192+t, j]·features[n, t], and multiplies by W2 from the left.  They agree on every
  extended real: splitting a sum over 204 indices into its first 192 and last 12 terms, and the commutativity and
  associativity of + and ·, hold there without any finiteness.
-/
import Idealize.ShloMosaic.PureOps.Ideal.Laws
import Idealize.ShloMosaic.Lib.ValueIdx
import Mathlib.Algebra.BigOperators.Fin

noncomputable section

namespace Cert.Readout

open Idealize.ShloMosaic Idealize.ShloMosaic.ValueIdx

/-- The patch of an index word: read signed, clamped into 0..255. -/
def pidx (w : BitVec 32) : Fin 256 := ⟨min w.toInt.toNat 255, by omega⟩

/-- Every node's index word, read signed, lies in 0..255. -/
def InRange (np : (⟨1, ![200000]⟩ : Shape).Idx → BitVec 32) : Prop :=
  ∀ n : Fin 200000, 0 ≤ (np (ix1 n)).toInt ∧ (np (ix1 n)).toInt < 256

/-- Entry i = 16·t + f of patch p's flattened features is mixer_x[0, t, p, f]. -/
def pfeat (mx : (⟨4, ![1, 12, 256, 16]⟩ : Shape).Idx → EReal) (p : Fin 256) (i : Fin 192) : EReal :=
  mx (ix4 (0 : Fin 1) (⟨i.val / 16, by omega⟩ : Fin 12) p (⟨i.val % 16, by omega⟩ : Fin 16))

/-- Node n's input row: its patch's 192 features, then its own 12. -/
def xrow (mx : (⟨4, ![1, 12, 256, 16]⟩ : Shape).Idx → EReal) (ft : (⟨2, ![200000, 12]⟩ : Shape).Idx → EReal)
    (p : Fin 256) (n : Fin 200000) (i : Fin 204) : EReal :=
  if h : i.val < 192 then pfeat mx p ⟨i.val, h⟩ else ft (ix2 n (⟨i.val - 192, by omega⟩ : Fin 12))

/-- The hidden unit j of node n, directly: relu(row · W1[:, j] + b1[j]). -/
def hidR (mx : (⟨4, ![1, 12, 256, 16]⟩ : Shape).Idx → EReal) (ft : (⟨2, ![200000, 12]⟩ : Shape).Idx → EReal)
    (W1 : (⟨2, ![204, 204]⟩ : Shape).Idx → EReal) (b1 : (⟨1, ![204]⟩ : Shape).Idx → EReal)
    (p : Fin 256) (n : Fin 200000) (j : Fin 204) : EReal :=
  max ((∑ i : Fin 204, xrow mx ft p n i * W1 (ix2 i j)) + b1 (ix1 j)) 0

/-- The folded table: T[p, j] = Σ_{i<192} patchfeat[p, i]·W1[i, j] + b1[j]. -/
def tabK (mx : (⟨4, ![1, 12, 256, 16]⟩ : Shape).Idx → EReal)
    (W1 : (⟨2, ![204, 204]⟩ : Shape).Idx → EReal) (b1 : (⟨1, ![204]⟩ : Shape).Idx → EReal)
    (p : Fin 256) (j : Fin 204) : EReal :=
  (∑ i : Fin 192, pfeat mx p i * W1 (ix2 (⟨i.val, by omega⟩ : Fin 204) j)) + b1 (ix1 j)

/-- The hidden unit j of node n through the table: relu(T[p, j] + Σ_{t<12} W1[192+t, j]·features[n, t]). -/
def hidK (mx : (⟨4, ![1, 12, 256, 16]⟩ : Shape).Idx → EReal) (ft : (⟨2, ![200000, 12]⟩ : Shape).Idx → EReal)
    (W1 : (⟨2, ![204, 204]⟩ : Shape).Idx → EReal) (b1 : (⟨1, ![204]⟩ : Shape).Idx → EReal)
    (p : Fin 256) (n : Fin 200000) (j : Fin 204) : EReal :=
  max (tabK mx W1 b1 p j + ∑ t : Fin 12, W1 (ix2 (⟨192 + t.val, by omega⟩ : Fin 204) j) * ft (ix2 n t)) 0

/-- The result at node n, output o, directly: Σ_j hidden[n, j]·W2[j, o] + b2[o]. -/
def outRAt (mx : (⟨4, ![1, 12, 256, 16]⟩ : Shape).Idx → EReal) (ft : (⟨2, ![200000, 12]⟩ : Shape).Idx → EReal)
    (W1 : (⟨2, ![204, 204]⟩ : Shape).Idx → EReal) (b1 : (⟨1, ![204]⟩ : Shape).Idx → EReal)
    (W2 : (⟨2, ![204, 12]⟩ : Shape).Idx → EReal) (b2 : (⟨1, ![12]⟩ : Shape).Idx → EReal)
    (np : (⟨1, ![200000]⟩ : Shape).Idx → BitVec 32) (n : Fin 200000) (o : Fin 12) : EReal :=
  (∑ j : Fin 204, hidR mx ft W1 b1 (pidx (np (ix1 n))) n j * W2 (ix2 j o)) + b2 (ix1 o)

/-- The same through the table, W2 multiplied from the left. -/
def outKAt (mx : (⟨4, ![1, 12, 256, 16]⟩ : Shape).Idx → EReal) (ft : (⟨2, ![200000, 12]⟩ : Shape).Idx → EReal)
    (W1 : (⟨2, ![204, 204]⟩ : Shape).Idx → EReal) (b1 : (⟨1, ![204]⟩ : Shape).Idx → EReal)
    (W2 : (⟨2, ![204, 12]⟩ : Shape).Idx → EReal) (b2 : (⟨1, ![12]⟩ : Shape).Idx → EReal)
    (np : (⟨1, ![200000]⟩ : Shape).Idx → BitVec 32) (n : Fin 200000) (o : Fin 12) : EReal :=
  (∑ j : Fin 204, W2 (ix2 j o) * hidK mx ft W1 b1 (pidx (np (ix1 n))) n j) + b2 (ix1 o)

/-- The whole result array [1, 200000, 12], directly. -/
def outR (mx : (⟨4, ![1, 12, 256, 16]⟩ : Shape).Idx → EReal) (ft : (⟨2, ![200000, 12]⟩ : Shape).Idx → EReal)
    (W1 : (⟨2, ![204, 204]⟩ : Shape).Idx → EReal) (b1 : (⟨1, ![204]⟩ : Shape).Idx → EReal)
    (W2 : (⟨2, ![204, 12]⟩ : Shape).Idx → EReal) (b2 : (⟨1, ![12]⟩ : Shape).Idx → EReal)
    (np : (⟨1, ![200000]⟩ : Shape).Idx → BitVec 32) : (⟨3, ![1, 200000, 12]⟩ : Shape).Idx → EReal :=
  fun y => outRAt mx ft W1 b1 W2 b2 np (y 1) (y 2)

/-- The whole result array through the table. -/
def outK (mx : (⟨4, ![1, 12, 256, 16]⟩ : Shape).Idx → EReal) (ft : (⟨2, ![200000, 12]⟩ : Shape).Idx → EReal)
    (W1 : (⟨2, ![204, 204]⟩ : Shape).Idx → EReal) (b1 : (⟨1, ![204]⟩ : Shape).Idx → EReal)
    (W2 : (⟨2, ![204, 12]⟩ : Shape).Idx → EReal) (b2 : (⟨1, ![12]⟩ : Shape).Idx → EReal)
    (np : (⟨1, ![200000]⟩ : Shape).Idx → BitVec 32) : (⟨3, ![1, 200000, 12]⟩ : Shape).Idx → EReal :=
  fun y => outKAt mx ft W1 b1 W2 b2 np (y 1) (y 2)

/-- A sum over 204 indices is the sum of its first 192 and its last 12 terms. -/
theorem sum_204_split (g : Fin 204 → EReal) :
    ∑ i : Fin 204, g i = (∑ i : Fin 192, g ⟨i.val, by omega⟩) + ∑ t : Fin 12, g ⟨192 + t.val, by omega⟩ := by
  -- 204 = 192 + 12: the sum over the first 192 indices, then over the last 12
  exact Fin.sum_univ_add (a := 192) (b := 12) g

/-- The two hidden layers are one function. -/
theorem hidK_eq_hidR (mx : (⟨4, ![1, 12, 256, 16]⟩ : Shape).Idx → EReal) (ft : (⟨2, ![200000, 12]⟩ : Shape).Idx → EReal)
    (W1 : (⟨2, ![204, 204]⟩ : Shape).Idx → EReal) (b1 : (⟨1, ![204]⟩ : Shape).Idx → EReal)
    (p : Fin 256) (n : Fin 200000) (j : Fin 204) : hidK mx ft W1 b1 p n j = hidR mx ft W1 b1 p n j := by
  unfold hidK hidR tabK
  rw [sum_204_split (fun i => xrow mx ft p n i * W1 (ix2 i j))]
  -- the first 192 entries of the row are the patch's features
  have hfirst : ∀ i : Fin 192, xrow mx ft p n ⟨i.val, by omega⟩ = pfeat mx p i := fun i => by
    unfold xrow
    rw [dif_pos (show (⟨i.val, by omega⟩ : Fin 204).val < 192 from i.isLt)]
  -- the last 12 are the node's own: 192 + t - 192 = t
  have hlast : ∀ t : Fin 12, xrow mx ft p n ⟨192 + t.val, by omega⟩ = ft (ix2 n t) := fun t => by
    unfold xrow
    rw [dif_neg (show ¬ (⟨192 + t.val, by omega⟩ : Fin 204).val < 192 from by simp)]
    congr 2
    exact Fin.ext (by simp)
  simp only [hfirst, hlast]
  -- what remains is commutativity of the product inside the second sum and a reordering of three summands
  rw [Finset.sum_congr rfl fun t _ => mul_comm (W1 (ix2 (⟨192 + t.val, by omega⟩ : Fin 204) j)) (ft (ix2 n t))]
  rw [add_right_comm]

/-- At every node and output the two arrangements agree. -/
theorem outKAt_eq_outRAt (mx : (⟨4, ![1, 12, 256, 16]⟩ : Shape).Idx → EReal) (ft : (⟨2, ![200000, 12]⟩ : Shape).Idx → EReal)
    (W1 : (⟨2, ![204, 204]⟩ : Shape).Idx → EReal) (b1 : (⟨1, ![204]⟩ : Shape).Idx → EReal)
    (W2 : (⟨2, ![204, 12]⟩ : Shape).Idx → EReal) (b2 : (⟨1, ![12]⟩ : Shape).Idx → EReal)
    (np : (⟨1, ![200000]⟩ : Shape).Idx → BitVec 32) (n : Fin 200000) (o : Fin 12) :
    outKAt mx ft W1 b1 W2 b2 np n o = outRAt mx ft W1 b1 W2 b2 np n o := by
  unfold outKAt outRAt
  congr 1
  exact Finset.sum_congr rfl fun j _ => by rw [hidK_eq_hidR, mul_comm]

/-- The two arrangements of the readout are one function. -/
theorem outK_eq_outR (mx : (⟨4, ![1, 12, 256, 16]⟩ : Shape).Idx → EReal) (ft : (⟨2, ![200000, 12]⟩ : Shape).Idx → EReal)
    (W1 : (⟨2, ![204, 204]⟩ : Shape).Idx → EReal) (b1 : (⟨1, ![204]⟩ : Shape).Idx → EReal)
    (W2 : (⟨2, ![204, 12]⟩ : Shape).Idx → EReal) (b2 : (⟨1, ![12]⟩ : Shape).Idx → EReal)
    (np : (⟨1, ![200000]⟩ : Shape).Idx → BitVec 32) : outK mx ft W1 b1 W2 b2 np = outR mx ft W1 b1 W2 b2 np := by
  funext y
  show outKAt mx ft W1 b1 W2 b2 np (y 1) (y 2) = outRAt mx ft W1 b1 W2 b2 np (y 1) (y 2)
  exact outKAt_eq_outRAt mx ft W1 b1 W2 b2 np _ _

end Cert.Readout

end
-- ==== Proof.PreRange.lean ====
/-
  The precondition's last conjunct read back: where the printed predicate holds, every node's index word lies in 0..255.
-/
import proofs.«417548_j44968307589152_3_alg».proof.Pre_finite_inputs
import proofs.«417548_j44968307589152_3_alg».proof.Proof.Gen.Pre_finite_inputs
import proofs.«417548_j44968307589152_3_alg».proof.Proof.Spec
import Idealize.ShloMosaic.Lib.StableHlo.Predicate
import Idealize.ShloMosaic.Lib.ReduceAll

noncomputable section

namespace Cert.Hand

open Idealize.ShloMosaic Idealize.ShloMosaic.ValueIdx

/-- The printed precondition ends in the conjunction, over all nodes, of `0 ≤ index` and `index < 256` (signed
    compares); where it is all ones, each node's index word is in range. -/
theorem patch_range {F : FTy → Type} [FloatOps F]
    (a0 : FVec F Cert.Pre_finite_inputs.S1x12x256x16 .f32) (a1 : FVec F Cert.Pre_finite_inputs.S200000x12 .f32)
    (a2 : FVec F Cert.Pre_finite_inputs.S204x204 .f32) (a3 : FVec F Cert.Pre_finite_inputs.S204 .f32)
    (a4 : FVec F Cert.Pre_finite_inputs.S204x12 .f32) (a5 : FVec F Cert.Pre_finite_inputs.S12 .f32)
    (a6 : IVec Cert.Pre_finite_inputs.S200000 32)
    (h : Cert.Pre_finite_inputs.fn (F := F) a0 a1 a2 a3 a4 a5 a6 = fun _ => 1#1) : Cert.Readout.InRange a6 := by
  -- the predicate's value at its one index
  have h0 := congrFun h ix0
  dsimp only [Cert.Pre_finite_inputs.fn, Cert.Pre_finite_inputs.fn_part1, Cert.Pre_finite_inputs.fn_part2] at h0
  -- the outer conjunction: its second half is the conjunction over all nodes
  obtain ⟨-, hall⟩ := IntOp.andi_eq_one.1 h0
  haveI : Subsingleton Cert.Pre_finite_inputs.S_.Idx := ⟨fun a b => funext fun d => d.elim0⟩
  intro n
  -- a conjunction over all nodes that is one is one at node n
  have hn := Host.reduce_andi_all _ _ _ _ _ hall (ix1 n)
  -- at node n: the two signed compares, read as inequalities of the signed values
  obtain ⟨hge, hlt⟩ := IntOp.andi_eq_one.1 hn
  have hge' := IntOp.cmpi_sge.1 hge
  have hlt' := IntOp.cmpi_slt.1 hlt
  -- a broadcast scalar constant reads the constant at every node
  change (0#32 : BitVec 32).toInt ≤ (a6 (ix1 n)).toInt at hge'
  change (a6 (ix1 n)).toInt < (256#32 : BitVec 32).toInt at hlt'
  have e0 : (0#32 : BitVec 32).toInt = 0 := by decide
  have e256 : (256#32 : BitVec 32).toInt = 256 := by decide
  rw [e0] at hge'
  rw [e256] at hlt'
  exact ⟨hge', hlt'⟩

end Cert.Hand

end
-- ==== Proof.KFrameBits.lean ====
/-
  The word-level kernel program runs to the end, faults nowhere and leaves its argument arrays as they were.
-/
import proofs.«417548_j44968307589152_3_alg».proof.Defs
import proofs.«417548_j44968307589152_3_alg».proof.Proof.Gen.Kernel
import proofs.«417548_j44968307589152_3_alg».proof.Proof.Gen.Kernel.Skeleton
import proofs.«417548_j44968307589152_3_alg».proof.Proof.Gen.Kernel.Launch
import proofs.«417548_j44968307589152_3_alg».proof.Proof.Gen.Kernel.Points
import proofs.«417548_j44968307589152_3_alg».proof.Proof.Gen.Kernel.Frame
import proofs.«417548_j44968307589152_3_alg».proof.Proof.Gen.Pre_finite_inputs

set_option maxRecDepth 16384

noncomputable section

namespace Cert.Kernel.Hand

open Idealize.ShloMosaic Idealize.SL.Sem Cert.Kernel Cert.Kernel.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on whole buffers -/

set_option maxHeartbeats 1000000 in
/-- The kernel body on seven whole buffers at ANY contents: it loads the seven buffers whole, computes, and stores
    one whole block into the last. No address and no branch depends on a loaded value, so the run needs nothing of
    the contents; it ends with every buffer still owned in full, at some contents. -/
theorem sound_kernel (c : Dev nD) (E : Set ℕ) (i : grid0.Coords)
    (arg1 : Memref sig .tc .vmem S1x4096 .i32) (harg1 : arg1.IsWhole)
    (arg2 : Memref sig .tc .vmem S12x4096 .f32) (harg2 : arg2.IsWhole)
    (arg3 : Memref sig .tc .vmem S204x256 .bf16) (harg3 : arg3.IsWhole)
    (arg4 : Memref sig .tc .vmem S204x12 .bf16) (harg4 : arg4.IsWhole)
    (arg5 : Memref sig .tc .vmem S12x204 .bf16) (harg5 : arg5.IsWhole)
    (arg6 : Memref sig .tc .vmem S12 .f32) (harg6 : arg6.IsWhole)
    (arg7 : Memref sig .tc .vmem S12x4096 .f32) (harg7 : arg7.IsWhole)
    (x1 : Vec F S1x4096 .i32) (x2 : Vec F S12x4096 .f32) (x3 : Vec F S204x256 .bf16) (x4 : Vec F S204x12 .bf16)
    (x5 : Vec F S12x204 .bf16) (x6 : Vec F S12 .f32) (x7 : Vec F S12x4096 .f32) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7
        ∗ (iprop((∃ X, owns (c : Thread nD τ) arg1 fullShare X) ∗ (∃ X, owns (c : Thread nD τ) arg2 fullShare X)
            ∗ (∃ X, owns (c : Thread nD τ) arg3 fullShare X) ∗ (∃ X, owns (c : Thread nD τ) arg4 fullShare X)
            ∗ (∃ X, owns (c : Thread nD τ) arg5 fullShare X) ∗ (∃ X, owns (c : Thread nD τ) arg6 fullShare X)
            ∗ (∃ X, owns (c : Thread nD τ) arg7 fullShare X)) -∗ K ⟨⟩))
      ⊢ wp frame (wpE (defs₀ (F := F)) Variants.none c none) E
          (cc0__kernel i arg1 harg1 arg2 harg2 arg3 harg3 arg4 harg4 arg5 harg5 arg6 harg6 arg7 harg7) K := by
  simp only [cc0__kernel_eq_skeleton]; unfold cc0__kernel_skel
  unfold owns
  iintro ⟨⟨%f1, -, H1⟩, ⟨%f2, -, H2⟩, ⟨%f3, -, H3⟩, ⟨%f4, -, H4⟩, ⟨%f5, -, H5⟩, ⟨%f6, -, H6⟩, ⟨%f7, -, H7⟩, Hk⟩
  sl_exec
  sl_step
  iapply Hk
  isplitl [H1]
  · iexists _; iexists f1; isplitr; · ipureintro; rfl
    iexact H1
  isplitl [H2]
  · iexists _; iexists f2; isplitr; · ipureintro; rfl
    iexact H2
  isplitl [H3]
  · iexists _; iexists f3; isplitr; · ipureintro; rfl
    iexact H3
  isplitl [H4]
  · iexists _; iexists f4; isplitr; · ipureintro; rfl
    iexact H4
  isplitl [H5]
  · iexists _; iexists f5; isplitr; · ipureintro; rfl
    iexact H5
  isplitl [H6]
  · iexists _; iexists f6; isplitr; · ipureintro; rfl
    iexact H6
  · iexists _; iexists _; isplitr
    swap; · iexact H7
    ipureintro; rfl

/-! ## The proof data: relational, constraining nothing -/

/-- The pipeline's proof data on core `c`: each window's array as the region finds it; of what the body leaves in a
    staging buffer NOTHING is said (the relation holds of any contents found and any contents left), because two input
    blocks and the output block overhang their arrays at the last grid point, so a buffer's tail there holds words no
    array names; the invariant is the class's (the scoped rest and the generator register, untouched); every array is
    held in full and nothing is owed. -/
def rdat (c : Dev nD) : Pipeline.RDat τ (Elt F) Unit ℕ (UR sig nD τ) ℕ cfg0 c where
  A w := V m c (Pipeline.arrRef spec0 w)
  after _ _ _ _ := True
  Φ _ := Pipeline.ΦA spec0 c
  q _ := fullShare
  owed _ := 0

/-- The proof data's arrays are the region-entry contents (the structure projected, the contents never unfolded). -/
theorem A_eq (c : Dev nD) (w : Fin cfg0.W) : (rdat m c).A w = V m c (Pipeline.arrRef spec0 w) := by
  dsimp only [rdat]

/-! ## The body obligation, at a generic point -/

/-- What the body is called with at point `t`: the invariant, what the core owes, and each window's current staging
    buffer at the contents `Y w` it is handed. -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6))

/-- What it returns: the same invariant and debt, and each buffer at some contents in the (empty) relation to `Y w`. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X)
    ∗ (∃ X, ⌜(rdat m c).after 3 t (Y 3) X⌝ ∗ owns (c : Thread nD τ) (st0_3 t) fullShare X)
    ∗ (∃ X, ⌜(rdat m c).after 4 t (Y 4) X⌝ ∗ owns (c : Thread nD τ) (st0_4 t) fullShare X)
    ∗ (∃ X, ⌜(rdat m c).after 5 t (Y 5) X⌝ ∗ owns (c : Thread nD τ) (st0_5 t) fullShare X)
    ∗ (∃ X, ⌜(rdat m c).after 6 t (Y 6) X⌝ ∗ owns (c : Thread nD τ) (st0_6 t) fullShare X))

/-- The body at any point, from any contents of the seven current staging buffers: the whole-buffer triple applies as
    it stands; the invariant and the debt pass through unread, and neither changes from one point to the next. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdat m c).Φ t.succ = (rdat m c).Φ t.castSucc from rfl,
    show (rdat m c).owesAt () t.succ = (rdat m c).owesAt () t.castSucc from rfl]
  iintro ⟨HΦ, Ho, H0, H1, H2, H3, H4, H5, H6⟩
  iapply (sound_kernel c Set.univ (grid0.coords t) _ _ _ _ _ _ _ _ _ _ _ _ _ _ (Y 0) (Y 1) (Y 2) (Y 3) (Y 4) (Y 5) (Y 6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨⟨%X0, H0⟩, ⟨%X1, H1⟩, ⟨%X2, H2⟩, ⟨%X3, H3⟩, ⟨%X4, H4⟩, ⟨%X5, H5⟩, ⟨%X6, H6⟩⟩
  isplitl [HΦ]; · iexact HΦ
  isplitl [Ho]; · iexact Ho
  isplitl [H0]
  · iexists X0; isplitr; · ipureintro; trivial
    iexact H0
  isplitl [H1]
  · iexists X1; isplitr; · ipureintro; trivial
    iexact H1
  isplitl [H2]
  · iexists X2; isplitr; · ipureintro; trivial
    iexact H2
  isplitl [H3]
  · iexists X3; isplitr; · ipureintro; trivial
    iexact H3
  isplitl [H4]
  · iexists X4; isplitr; · ipureintro; trivial
    iexact H4
  isplitl [H5]
  · iexists X5; isplitr; · ipureintro; trivial
    iexact H5
  · iexists X6; isplitr; · ipureintro; trivial
    iexact H6

/-- The library's relational body obligation, at every point: what the buffers may hold there is not used. -/
theorem body_obligation (c : Dev nD) : (rdat m c).BodyObligation (defs₀ (F := F)) Variants.none () Set.univ := fun t Y _ => by
  rw [bigSep_W0, bigSep_W0]
  exact sound_body m c t Y

/-! ## The run and the frame -/

/-- The two host lines after the region write their own result buffers only. -/
theorem sfx_writes : ∀ ops ∈ ([hostOps1] : List (List (HloOp τ sig (Elt F)))), ∀ op ∈ ops, ∀ b : Ref sig .tc,
    Proc.devRef .tc b ∈ op.writes → b ∈ ({main_v18, main_v19} : Finset (Ref sig .tc)) := by
  intro ops hops op hop b hb
  simp only [List.mem_cons, List.mem_nil_iff, or_false] at hops
  rcases hops with rfl
  simp only [hostOps1, List.mem_cons, List.mem_nil_iff, or_false] at hop
  rcases hop with rfl | rfl
  · rw [StableHlo.unary_writes, Finset.mem_singleton] at hb
    obtain rfl : b = main_v18 := Proc.devRef_injective (τ := τ) _ hb
    exact Finset.mem_insert_self _ _
  · rw [StableHlo.unary_writes, Finset.mem_singleton] at hb
    obtain rfl : b = main_v19 := Proc.devRef_injective (τ := τ) _ hb
    exact Finset.mem_insert_of_mem (Finset.mem_singleton_self _)

set_option backward.isDefEq.respectTransparency.types false in
/-- From any memory with zero counters, every weakly fair execution of the program on the TensorCores terminates
    without a fault, and in every final state each window's array holds contents the relational data admits (an input
    array its entry contents) and every other unscoped buffer that the later host lines do not write holds what it
    held when the region was entered. -/
theorem run_main : θ_run defs (onTc (τ := τ) (main (F := F))) (s₀ m ρ)
    (Pipeline.RDat.FramePostR cfg0 (rdat m) ({main_v18, main_v19} : Finset (Ref sig .tc)) (V m)) :=
  Pipeline.RDat.θ_run_frame_around_T cfgs (0 : Fin 1) launch0 defs₀ Variants.none (rdat m) {main_v18, main_v19} m ρ main
    (hbody := body_obligation m) (hshare := fun c => (rdat m c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)

/-- The frame at any float model: the sixth argument is the array of the one window that stages an argument, an input,
    so it ends at its entry contents; every other argument is no window's array and no buffer the later host lines
    write, so it ends as the region found it; and no host line before the region writes an argument. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c),
     ((h c).2 main_arg2 (Finset.mem_sdiff.mpr ⟨Pipeline.mem_restRefs_of main_arg2 (by decide) (by decide), by decide⟩)).trans (V_main_arg2 m c),
     ((h c).2 main_arg3 (Finset.mem_sdiff.mpr ⟨Pipeline.mem_restRefs_of main_arg3 (by decide) (by decide), by decide⟩)).trans (V_main_arg3 m c),
     ((h c).2 main_arg4 (Finset.mem_sdiff.mpr ⟨Pipeline.mem_restRefs_of main_arg4 (by decide) (by decide), by decide⟩)).trans (V_main_arg4 m c),
     ((Pipeline.RDat.FramePostR.arr_in h c 5 rfl).trans ((A_eq m c 5).trans (V_main_arg5 m c))),
     ((h c).2 main_arg6 (Finset.mem_sdiff.mpr ⟨Pipeline.mem_restRefs_of main_arg6 (by decide) (by decide), by decide⟩)).trans (V_main_arg6 m c)⟩)
    (run_main m ρ)

theorem frame : Cert.frame_Kernel := by
  exact fun m ρ _ => frame_any (F := Bits) m ρ

end Cert.Kernel.Hand

end
-- ==== Proof.KBody.lean ====
/-
  The kernel body as a triple.  On seven whole staging buffers — the index row, the feature block, the folded table,
  the last twelve rows of W1 transposed, W2 transposed, b2, and the result block — the body loads the first six whole,
  computes one value from them, and stores it whole into the seventh; the six inputs are left as they were.
-/
import proofs.«417548_j44968307589152_3_alg».proof.Proof.Gen.KernelIdeal.Skeleton
import proofs.«417548_j44968307589152_3_alg».proof.Proof.Gen.KernelIdeal.Launch
import proofs.«417548_j44968307589152_3_alg».proof.Proof.Gen.KernelIdeal.Points
import proofs.«417548_j44968307589152_3_alg».proof.Proof.Gen.KernelIdeal.Frame
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles of the body's accesses -/

abbrev rIdx : Rect S1x4096 := Rect.unit (s := S1x4096) ![0, 0] S1x4096.size inb_S1x4096_S1x4096_0_0
abbrev rBlk : Rect S12x4096 := Rect.unit (s := S12x4096) ![0, 0] S12x4096.size inb_S12x4096_S12x4096_0_0
abbrev rTab : Rect S204x256 := Rect.unit (s := S204x256) ![0, 0] S204x256.size inb_S204x256_S204x256_0_0
abbrev rW1b : Rect S204x12 := Rect.unit (s := S204x12) ![0, 0] S204x12.size inb_S204x12_S204x12_0_0
abbrev rW2 : Rect S12x204 := Rect.unit (s := S12x204) ![0, 0] S12x204.size inb_S12x204_S12x204_0_0
abbrev rB2 : Rect S12 := Rect.unit (s := S12) ![0] S12.size inb_S12_S12_0

/-- What the result buffer holds after the body, from the six input buffers' contents: its one whole store. -/
def outBlk (x0 : Vec F S1x4096 .i32) (x1 : Vec F S12x4096 .f32) (x2 : Vec F S204x256 .bf16) (x3 : Vec F S204x12 .bf16)
    (x4 : Vec F S12x204 .bf16) (x5 : Vec F S12 .f32) : Vec F S12x4096 .f32 :=
  View.canon [⟨rBlk, k0_pay1 (View.ld x0 rIdx) (View.ld x2 rTab) (View.ld x1 rBlk) (View.ld x3 rW1b) (View.ld x4 rW2) (View.ld x5 rB2)⟩]

/-- The one store covers the buffer. -/
theorem cover_out (p0 : Vec F S12x4096 .f32) (y : S12x4096.Idx) :
    ∃ pc ∈ ([⟨rBlk, p0⟩] : List (View.Piece (Elt F) S12x4096 .f32)), y ∈ pc.1.set :=
  View.cover_of_tiled [⟨rBlk, p0⟩] S12x4096.size (by rfl) y

set_option maxHeartbeats 1000000 in
/-- The body on whole staging memrefs, the six inputs at contents `x0 … x5` and the result's at anything, runs to the
    continuation holding the inputs as they were and the result's buffer at `outBlk` of them. -/
theorem sound_kernel (c : Dev nD) (E : Set ℕ) (i : grid0.Coords) (arg1 : Memref sig .tc .vmem S1x4096 .i32) (harg1 : arg1.IsWhole) (arg2 : Memref sig .tc .vmem S12x4096 .f32) (harg2 : arg2.IsWhole) (arg3 : Memref sig .tc .vmem S204x256 .bf16) (harg3 : arg3.IsWhole) (arg4 : Memref sig .tc .vmem S204x12 .bf16) (harg4 : arg4.IsWhole) (arg5 : Memref sig .tc .vmem S12x204 .bf16) (harg5 : arg5.IsWhole) (arg6 : Memref sig .tc .vmem S12 .f32) (harg6 : arg6.IsWhole) (arg7 : Memref sig .tc .vmem S12x4096 .f32) (harg7 : arg7.IsWhole)
    (x0 : Vec F S1x4096 .i32) (x1 : Vec F S12x4096 .f32) (x2 : Vec F S204x256 .bf16) (x3 : Vec F S204x12 .bf16)
    (x4 : Vec F S12x204 .bf16) (x5 : Vec F S12 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E (cc0__kernel i arg1 harg1 arg2 harg2 arg3 harg3 arg4 harg4 arg5 harg5 arg6 harg6 arg7 harg7) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

end Cert.KernelIdeal.Hand

end
-- ==== Proof.KPay.lean ====
/-
  The kernel body's value read at one entry, at the ideal values.  At output o and column q of the block it is
    Σ_j W2ᵀ[o, j] · relu( Tᵀ[j, p] + Σ_t W1bᵀ[j, t] · X[t, q] ) + b2[o],
  p the column's index word read signed and clamped into 0..255: the product of the table with the one-hot matrix of
  the clamped indices has, in column q, exactly one factor that is 1 and 255 that are 0, so it selects column p of the
  table (x · 0 = 0 and x · 1 = x hold for every extended real).  The entry depends on column q of the index row and of
  the feature block only.

  The steps, from the inside out.  Words: clamping a 32-bit word w, read signed, by max with 0 and min with 255 gives the
  word of min (max w 0) 255, a number below 256 (`clamp_eq`); two words of numbers below 2³² are equal exactly when the
  numbers are, so comparing the word of a row number p < 256 with the clamped word, widening the bit and converting it
  gives 1 if p is the clamped number and 0 otherwise (`onehot_entry`).  Layout: a row [1, b] laid down the rows, a vector
  [a] stood up as a column [a, 1], a column laid along the columns (`shapeCast_a_a1_apply`, `broadcastTo_a1_ab_apply`).
  Products: a rows-by-columns product into the zero matrix is, at (r, c), Σ_l A[r, l] · B[l, c] (`matmul_plain_apply`);
  against the one-hot column that sum has one surviving term (`sum_mul_onehot`).
-/
import proofs.«417548_j44968307589152_3_alg».proof.Proof.Gen.KernelIdeal.Skeleton
import proofs.«417548_j44968307589152_3_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember
import Mathlib.Algebra.BigOperators.Group.Finset.Basic
import Mathlib.Data.EReal.Basic

noncomputable section

namespace Cert.KernelIdeal.Hand

open Idealize.ShloMosaic Idealize.ShloMosaic.ValueIdx Cert.KernelIdeal Cert.KernelIdeal.Gen

/-! ## Words: the clamp and the comparison -/

/-- A word read signed, raised to at least 0 and lowered to at most 255, is the word of its patch number
    `min w.toInt.toNat 255`: below 0 both are 0, from 0 to 255 both are w itself, above 255 both are 255. -/
theorem clamp_eq (w : BitVec 32) :
    IntOp.minsi 255#32 (IntOp.maxsi 0#32 w) = BitVec.ofNat 32 (Cert.Readout.pidx w).val := by
  have h255 : (255#32 : BitVec 32).toInt = 255 := by decide
  have h0 : (0#32 : BitVec 32).toInt = 0 := by decide
  have hcond := BitVec.toInt_eq_toNat_cond w
  have hlt := w.isLt
  unfold IntOp.minsi IntOp.maxsi Cert.Readout.pidx
  simp only [BitVec.slt_eq_decide, decide_eq_true_eq, h255, h0]
  by_cases hneg : w.toInt < 0
  · -- w < 0: the maximum with 0 is 0, which 255 is not below
    rw [if_pos hneg, if_neg (by rw [h0]; omega)]
    have : min w.toInt.toNat 255 = 0 := by omega
    rw [this]
  · rw [if_neg hneg]
    by_cases hbig : 255 < w.toInt
    · -- w > 255: the minimum with 255 is 255
      rw [if_pos hbig]
      have : min w.toInt.toNat 255 = 255 := by omega
      rw [this]
    · -- 0 ≤ w ≤ 255: nothing changes, and w is the word of its own number
      rw [if_neg hbig]
      apply BitVec.eq_of_toNat_eq
      rw [BitVec.toNat_ofNat]
      split at hcond <;> omega

/-- One entry of the one-hot matrix, as a word computation: the row number p against the clamped index word, compared
    for equality, the bit widened to 32 bits and converted, is 1 when p is the word's patch and 0 otherwise. -/
theorem onehot_entry (w : BitVec 32) (p : Fin 256) :
    (FloatOps.sitofp (F := Ideal) .f32
        ((IntOp.cmpi .eq (BitVec.ofNat 32 p.val) (IntOp.minsi 255#32 (IntOp.maxsi 0#32 w))).setWidth 32) : Ideal .f32)
      = if p = Cert.Readout.pidx w then (1 : EReal) else 0 := by
  rw [clamp_eq]
  -- at the ideal values the conversion is the integer the word denotes, read signed
  show ((((IntOp.cmpi .eq (BitVec.ofNat 32 p.val) (BitVec.ofNat 32 (Cert.Readout.pidx w).val)).setWidth 32).toInt : ℝ)
    : EReal) = _
  by_cases h : p = Cert.Readout.pidx w
  · rw [if_pos h, ← h]
    have hbit : IntOp.cmpi .eq (BitVec.ofNat 32 p.val) (BitVec.ofNat 32 p.val) = 1#1 := by
      unfold IntOp.cmpi; simp
    rw [hbit]
    have hone : ((1#1 : BitVec 1).setWidth 32).toInt = 1 := by decide
    rw [hone]; simp
  · rw [if_neg h]
    -- two numbers below 256 have different 32-bit words
    have hne : BitVec.ofNat 32 p.val ≠ BitVec.ofNat 32 (Cert.Readout.pidx w).val := by
      intro he
      have hv := congrArg BitVec.toNat he
      rw [BitVec.toNat_ofNat, BitVec.toNat_ofNat] at hv
      apply h; apply Fin.ext
      have := p.isLt; have := (Cert.Readout.pidx w).isLt
      omega
    have hbit : IntOp.cmpi .eq (BitVec.ofNat 32 p.val) (BitVec.ofNat 32 (Cert.Readout.pidx w).val) = 0#1 := by
      unfold IntOp.cmpi
      show BitVec.ofBool (_ == _) = 0#1
      rw [beq_eq_false_iff_ne.mpr hne]; rfl
    rw [hbit]
    have hzero : ((0#1 : BitVec 1).setWidth 32).toInt = 0 := by decide
    rw [hzero]; simp

/-! ## Layout: a vector stood up as a column, and a column laid along the columns -/

section Layout
variable {α : Type}

/-- An `[a]` array cast to `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, c)`, the operand's one column at `i`. -/
theorem broadcastTo_a1_ab_apply {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    -- the row axis is kept unless it has one entry, and then the row is row 0 anyway
    show i.val = if a = 1 then 0 else i.val
    split
    · have := i.isLt; omega
    · rfl
  | ⟨1, _⟩ => rfl

end Layout

/-! ## Products -/

/-- A rows-by-columns product (`[m, k]` by `[k, n]`, contracting the left operand's columns with the right operand's
    rows) accumulated into the zero matrix is, at `(r, c)`, the sum over `l` of `A[r, l] · B[l, c]`: adding to 0 changes
    nothing, and the product without an accumulator is that sum. -/
theorem matmul_plain_apply {m k n : Nat} {φ₁ φ₂ : FTy} (d : DotDims ⟨2, ![m, k]⟩ ⟨2, ![k, n]⟩ ⟨2, ![m, n]⟩)
    (hd : d = DotDims.plain m k n) (A : FVec Ideal ⟨2, ![m, k]⟩ φ₁) (B : FVec Ideal ⟨2, ![k, n]⟩ φ₂) (r : Fin m) (c : Fin n) :
    matmul d none A B (constant ⟨2, ![m, n]⟩ .f32 0x00000000#32) (ix2 r c) = ∑ l : Fin k, A (ix2 r l) * B (ix2 l c) := by
  subst hd
  rw [matmul_zero_eq_dotGeneral]
  exact StackMember.dotGeneral_plain_apply none A B r c

/-- A sum against a one-hot vector keeps one term: every other term is `x · 0 = 0`, and the term at `P` is
    `x · 1 = x`; both hold for every extended real, the infinities included. -/
theorem sum_mul_onehot (f : Fin 256 → EReal) (P : Fin 256) :
    ∑ p : Fin 256, f p * (if p = P then (1 : EReal) else 0) = f P := by
  rw [Finset.sum_eq_single P]
  · rw [if_pos rfl, mul_one]
  · intro b _ hb; rw [if_neg hb, mul_zero]
  · intro hP; exact absurd (Finset.mem_univ P) hP

/-! ## The one-hot matrix -/

/-- The one-hot matrix `[256, 4096]` of the clamped index row, at `(p, q)`: the row counter along axis 0 is the word of
    `p`, the clamped row laid down the rows is the clamped word of column `q`, and the entry is 1 exactly when `p` is
    that column's patch. -/
theorem onehot_apply (v0 : Vec Ideal S1x4096 .i32) (p : Fin 256) (q : Fin 4096) :
    (truncf .bf16 (sitofp (F := Ideal) .f32 (extui 32 (cmpi .eq (iota .tc S256x4096 32 [0] iota_S256x4096_d0_w32)
        (broadcastTo S256x4096 (minsi (broadcast S1x4096 255#32) (maxsi (broadcast S1x4096 0#32)
          (shapeCast S1x4096 v0 shapeCasts_S1x4096_S1x4096))) broadcasts_S1x4096_S256x4096)) natLt_1_32)) bitsLt_bf16_f32
        : FVec Ideal S256x4096 .bf16) (ix2 p q)
      = if p = Cert.Readout.pidx (v0 (ix2 (0 : Fin 1) q)) then (1 : EReal) else 0 := by
  -- the format change is the identity, the conversion, widening and comparison act entry by entry
  show FloatOps.sitofp (F := Ideal) .f32 ((IntOp.cmpi .eq (iota .tc S256x4096 32 [0] iota_S256x4096_d0_w32 (ix2 p q))
      (broadcastTo S256x4096 (minsi (broadcast S1x4096 255#32) (maxsi (broadcast S1x4096 0#32)
          (shapeCast S1x4096 v0 shapeCasts_S1x4096_S1x4096))) broadcasts_S1x4096_S256x4096 (ix2 p q))).setWidth 32) = _
  rw [iota_single_apply, broadcastTo_1b_ab_apply, shapeCast_self]
  exact onehot_entry (v0 (ix2 (0 : Fin 1) q)) p

/-! ## The payload at an entry -/

theorem pay_apply (v0 : Vec Ideal S1x4096 .i32) (v12 : Vec Ideal S204x256 .bf16) (v15 : Vec Ideal S12x4096 .f32)
    (v18 : Vec Ideal S204x12 .bf16) (v25 : Vec Ideal S12x204 .bf16) (v28 : Vec Ideal S12 .f32) (o : Fin 12) (q : Fin 4096) :
    k0_pay1 (F := Ideal) v0 v12 v15 v18 v25 v28 (ix2 o q)
      = (∑ j : Fin 204, v25 (ix2 o j) * max (v12 (ix2 j (Cert.Readout.pidx (v0 (ix2 (0 : Fin 1) q))))
            + ∑ t : Fin 12, v18 (ix2 j t) * v15 (ix2 t q)) 0) + v28 (ix1 o) := by
  unfold k0_pay1
  dsimp only
  -- the last operation adds the bias column, laid along the columns, to the product with W2ᵀ
  refine (addf_apply _ _ (ix2 o q)).trans ?_
  refine congrArg₂ (· + ·) ?_ ?_
  · -- W2ᵀ · hidden at (o, q): the sum over the 204 hidden units
    refine (matmul_plain_apply _ rfl _ _ o q).trans (Finset.sum_congr rfl fun j _ => ?_)
    refine congrArg₂ (· * ·) (congrFun (shapeCast_self v25 _) (ix2 o j)) ?_
    -- hidden unit j of column q: the maximum with the zero splat of the sum of two products
    refine (truncf_apply (φ := .f32) (ψ := .bf16) _ bitsLt_bf16_f32 (ix2 j q)).trans ?_
    refine (maximumf_apply (φ := .f32) _ _ (ix2 j q)).trans ?_
    refine congrArg₂ max ?_ Ideal.ofBits_zero_f32
    refine (addf_apply _ _ (ix2 j q)).trans (congrArg₂ (· + ·) ?_ ?_)
    · -- the table times the one-hot matrix selects the table's column p
      refine (matmul_plain_apply _ rfl _ _ j q).trans ?_
      refine (Finset.sum_congr rfl fun p _ =>
        congrArg₂ (· * ·) (congrFun (shapeCast_self v12 _) (ix2 j p)) (onehot_apply v0 p q)).trans ?_
      exact sum_mul_onehot (fun p => v12 (ix2 j p)) _
    · -- the node's own part: W1bᵀ times the feature block, whose format change is the identity
      refine (matmul_plain_apply _ rfl _ _ j q).trans (Finset.sum_congr rfl fun t _ => ?_)
      exact congrArg₂ (· * ·) (congrFun (shapeCast_self v18 _) (ix2 j t)) (congrFun (shapeCast_self v15 _) (ix2 t q))
  · -- the bias: b2 stood up as a column and laid along the columns reads b2[o] at every q
    refine (broadcastTo_a1_ab_apply _ _ o q).trans ?_
    exact shapeCast_a_a1_apply v28 _ o 0

end Cert.KernelIdeal.Hand

end
-- ==== Proof.KHost.lean ====
/-
  The arrays the pallas_call's windows stage, as the host operations before it leave them, read at an entry at the
  ideal values: the folded table transposed, Tᵀ[j, p] = Σ_{i<192} patchfeat[p, i]·W1[i, j] + b1[j]; the last twelve rows
  of W1 transposed; W2 transposed; the features transposed; the index row.
-/
import proofs.«417548_j44968307589152_3_alg».proof.Proof.Gen.KernelIdeal.Launch
import proofs.«417548_j44968307589152_3_alg».proof.Proof.Gen.KernelIdeal.Frame
import proofs.«417548_j44968307589152_3_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Hand

open Idealize.ShloMosaic Idealize.ShloMosaic.ValueIdx Idealize.SL.Sem Cert.KernelIdeal Cert.KernelIdeal.Gen

variable (m : (ℓ : Loc nD τ sig) → Buf (Elt Ideal) ℓ)

/-! ## The operations' terms, over variables -/

/-- mixer_x with its axes 1 and 2 swapped, then flattened to [256, 192]: row p holds patch p's 192 features. -/
def flatX (mx : FVec Ideal S1x12x256x16 .f32) : FVec Ideal S256x192 .f32 :=
  shapeCast S256x192
    (shapeCast S1x256x192
      (transpose S1x256x12x16 [0, 2, 1, 3] mx transposes_S1x12x256x16_S1x256x12x16_0_2_1_3)
      shapeCasts_S1x256x12x16_S1x256x192)
    shapeCasts_S1x256x192_S256x192

/-- The first 192 rows of W1. -/
def w1Top (W1 : FVec Ideal S204x204 .f32) : FVec Ideal S192x204 .f32 :=
  extractStridedSlice S192x204 ![0, 0] W1 slices_S204x204_S192x204_0_0

/-- The bias as a row, repeated down 256 rows. -/
def biasRows (b1 : FVec Ideal S204 .f32) : FVec Ideal S256x204 .f32 :=
  broadcastInDim S256x204 ![0, 1] bcast_S1x204_S256x204_0_1 (broadcastInDim S1x204 ![1] bcast_S204_S1x204_1 b1)

/-- The folded table [256, 204]: the flattened features times the first 192 rows of W1, plus the bias rows. -/
def tabPJ (mx : FVec Ideal S1x12x256x16 .f32) (W1 : FVec Ideal S204x204 .f32) (b1 : FVec Ideal S204 .f32) :
    FVec Ideal S256x204 .f32 :=
  addf (Host.dotGeneral (F := Ideal) dot_S256x192_S192x204_S256x204_1_0_0_1_n_n none (flatX mx) (w1Top W1)) (biasRows b1)

/-- The folded table transposed to [204, 256] and narrowed. -/
def tabJP (mx : FVec Ideal S1x12x256x16 .f32) (W1 : FVec Ideal S204x204 .f32) (b1 : FVec Ideal S204 .f32) :
    FVec Ideal S204x256 .bf16 :=
  truncf .bf16 (transpose S204x256 [1, 0] (tabPJ mx W1 b1) transposes_S256x204_S204x256_1_0) bitsLt_bf16_f32

/-- The last twelve rows of W1, transposed to [204, 12] and narrowed. -/
def w1BotT (W1 : FVec Ideal S204x204 .f32) : FVec Ideal S204x12 .bf16 :=
  truncf .bf16
    (transpose S204x12 [1, 0] (extractStridedSlice S12x204 ![192, 0] W1 slices_S204x204_S12x204_192_0)
      transposes_S12x204_S204x12_1_0)
    bitsLt_bf16_f32

/-- W2 transposed to [12, 204] and narrowed. -/
def w2T (W2 : FVec Ideal S204x12 .f32) : FVec Ideal S12x204 .bf16 :=
  truncf .bf16 (transpose S12x204 [1, 0] W2 transposes_S204x12_S12x204_1_0) bitsLt_bf16_f32

/-- The features transposed to [12, 200000]. -/
def featT (ft : FVec Ideal S200000x12 .f32) : FVec Ideal S12x200000 .f32 :=
  transpose S12x200000 [1, 0] ft transposes_S200000x12_S12x200000_1_0

/-- The index vector as one row. -/
def idxRow (np : S200000.Idx → BitVec 32) : S1x200000.Idx → BitVec 32 :=
  shapeCast S1x200000 np shapeCasts_S200000_S1x200000

/-! ## The terms read at an entry -/

/-- The index row at (0, n) is the vector at n: a leading unit axis adds nothing to the row-major position. -/
theorem idxRow_apply (np : S200000.Idx → BitVec 32) (n : Fin 200000) :
    idxRow np (ix2 (0 : Fin 1) n) = np (ix1 n) :=
  shapeCast_a_1a_apply np shapeCasts_S200000_S1x200000 (0 : Fin 1) n

/-- The transposed features at (t, n) are the features at (n, t). -/
theorem featT_apply (ft : FVec Ideal S200000x12 .f32) (t : Fin 12) (n : Fin 200000) :
    featT ft (ix2 t n) = ft (ix2 n t) :=
  transpose_ix2_apply ft transposes_S200000x12_S12x200000_1_0 t n

/-- W2 transposed at (o, j) is W2 at (j, o); narrowing changes no ideal value. -/
theorem w2T_apply (W2 : FVec Ideal S204x12 .f32) (o : Fin 12) (j : Fin 204) :
    w2T W2 (ix2 o j) = W2 (ix2 j o) := by
  unfold w2T
  rw [truncf_apply]
  exact transpose_ix2_apply W2 transposes_S204x12_S12x204_1_0 o j

/-- The last twelve rows of W1, transposed, at (j, t): row 192 + t of W1 at column j. -/
theorem w1BotT_apply (W1 : FVec Ideal S204x204 .f32) (j : Fin 204) (t : Fin 12) :
    w1BotT W1 (ix2 j t) = W1 (ix2 (⟨192 + t.val, by omega⟩ : Fin 204) j) := by
  unfold w1BotT
  rw [truncf_apply]
  refine (transpose_ix2_apply _ transposes_S12x204_S204x12_1_0 j t).trans ?_
  exact slice2_axis0_apply 192 W1 slices_S204x204_S12x204_192_0 t j (⟨192 + t.val, by omega⟩ : Fin 204) rfl

/-! ## The folded table -/

/-- The flattened features at (p, i): the shape casts keep the row-major position, 192·p + i = (12·p + i / 16)·16 + i % 16,
    and the transpose swaps axes 1 and 2 back, so the entry is mixer_x at (0, i / 16, p, i % 16). -/
theorem flatX_apply (mx : FVec Ideal S1x12x256x16 .f32) (p : Fin 256) (i : Fin 192) :
    flatX mx (ix2 p i)
      = mx (ix4 (0 : Fin 1) (⟨i.val / 16, by omega⟩ : Fin 12) p (⟨i.val % 16, by omega⟩ : Fin 16)) := by
  unfold flatX
  -- the leading unit axis dropped
  refine (shapeCast_1ab_ab_apply _ shapeCasts_S1x256x192_S256x192 p i).trans ?_
  -- the last axis split, 192 = 12 · 16: equal row-major positions
  refine (shapeCast_apply _ shapeCasts_S1x256x12x16_S1x256x192 (ix3 (0 : Fin 1) p i)
    (ix4 (0 : Fin 1) p (⟨i.val / 16, by omega⟩ : Fin 12) (⟨i.val % 16, by omega⟩ : Fin 16)) ?_).trans ?_
  · rw [Shape.rowMajor_val_four, Shape.rowMajor_val_three]
    show ((0 * 256 + p.val) * 12 + i.val / 16) * 16 + i.val % 16 = (0 * 256 + p.val) * 192 + i.val
    omega
  -- axes 1 and 2 swapped
  · exact transpose_apply _ mx transposes_S1x12x256x16_S1x256x12x16_0_2_1_3 _ _ fun b =>
      match b with | ⟨0, _⟩ => rfl | ⟨1, _⟩ => rfl | ⟨2, _⟩ => rfl | ⟨3, _⟩ => rfl

/-- The first 192 rows of W1 at (i, j): W1 at (i, j). -/
theorem w1Top_apply (W1 : FVec Ideal S204x204 .f32) (i : Fin 192) (j : Fin 204) :
    w1Top W1 (ix2 i j) = W1 (ix2 (⟨i.val, by omega⟩ : Fin 204) j) :=
  slice2_axis0_apply 0 W1 slices_S204x204_S192x204_0_0 i j (⟨i.val, by omega⟩ : Fin 204) (Nat.zero_add _).symm

/-- The bias rows at (p, j): the bias at j, whatever the row. -/
theorem biasRows_apply (b1 : FVec Ideal S204 .f32) (p : Fin 256) (j : Fin 204) :
    biasRows b1 (ix2 p j) = b1 (ix1 j) := by
  unfold biasRows
  -- down the rows: the one row's entry at column j
  refine (broadcastInDim_apply ![0, 1] bcast_S1x204_S256x204_0_1 _ (ix2 p j) (ix2 (0 : Fin 1) j) fun a => ?_).trans ?_
  · match a with
    | ⟨0, _⟩ => rfl
    | ⟨1, _⟩ =>
      show j.val = if (204 : ℕ) = 1 then 0 else j.val
      rw [if_neg (by decide)]
  -- the vector as a row
  · refine broadcastInDim_apply ![1] bcast_S204_S1x204_1 b1 (ix2 (0 : Fin 1) j) (ix1 j) fun a => ?_
    match a with
    | ⟨0, _⟩ =>
      show j.val = if (204 : ℕ) = 1 then 0 else j.val
      rw [if_neg (by decide)]

/-! ### The product's index maps, axis by axis

The product [256, 192] × [192, 204] contracts the left operand's axis 1 with the right operand's axis 0: at the result's
entry (p, j) and contraction position k it reads the left operand at (p, k) and the right at (k, j). -/

/-- The product's dimension numbers. -/
abbrev tabDot : DotDims S256x192 S192x204 S256x204 := dot_S256x192_S192x204_S256x204_1_0_0_1_n_n

/-- The left operand's row is the result's row. -/
theorem tabDot_lhs0 (y : S256x204.Idx) (q : tabDot.contr.Idx) : (tabDot.lhsIdx y q 0).val = (y 0).val := by
  unfold DotDims.lhsIdx
  rw [dif_neg (show ¬ (0 : Fin S256x192.rank) ∈ tabDot.lhsBatch by decide),
    dif_pos (show (0 : Fin S256x192.rank) ∈ tabDot.lhsNonContracting by decide)]
  rfl

/-- The left operand's column is the contraction position. -/
theorem tabDot_lhs1 (y : S256x204.Idx) (q : tabDot.contr.Idx) :
    (tabDot.lhsIdx y q 1).val = (q ⟨0, by decide⟩).val :=
  tabDot.lhsIdx_val_of_single rfl y q

/-- The right operand's row is the contraction position. -/
theorem tabDot_rhs0 (y : S256x204.Idx) (q : tabDot.contr.Idx) :
    (tabDot.rhsIdx y q 0).val = (q ⟨0, by decide⟩).val :=
  tabDot.rhsIdx_val_of_single rfl y q

/-- The right operand's column is the result's column. -/
theorem tabDot_rhs1 (y : S256x204.Idx) (q : tabDot.contr.Idx) : (tabDot.rhsIdx y q 1).val = (y 1).val := by
  unfold DotDims.rhsIdx
  rw [dif_neg (show ¬ (1 : Fin S192x204.rank) ∈ tabDot.rhsBatch by decide),
    dif_pos (show (1 : Fin S192x204.rank) ∈ tabDot.rhsNonContracting by decide)]
  rfl

/-- The product at (p, j) is the sum over the 192 contraction positions of left (p, i) times right (i, j). -/
theorem tabDot_apply (A : FVec Ideal S256x192 .f32) (B : FVec Ideal S192x204 .f32) (p : Fin 256) (j : Fin 204) :
    Host.dotGeneral (F := Ideal) tabDot none A B (ix2 p j) = ∑ i : Fin 192, A (ix2 p i) * B (ix2 i j) := by
  simp only [Host.dotGeneral]
  rw [Ideal.dotGeneral_apply, ← Equiv.sum_comp (contrEquiv1 tabDot 192 rfl rfl).symm]
  refine Finset.sum_congr rfl fun i _ => ?_
  have hi := contrEquiv1_symm_val tabDot 192 rfl rfl i
  have el : tabDot.lhsIdx (ix2 p j) ((contrEquiv1 tabDot 192 rfl rfl).symm i) = ix2 p i := funext fun a => Fin.ext (by
    match a with
    | ⟨0, _⟩ => exact tabDot_lhs0 _ _
    | ⟨1, _⟩ => exact (tabDot_lhs1 _ _).trans hi)
  have er : tabDot.rhsIdx (ix2 p j) ((contrEquiv1 tabDot 192 rfl rfl).symm i) = ix2 i j := funext fun a => Fin.ext (by
    match a with
    | ⟨0, _⟩ => exact (tabDot_rhs0 _ _).trans hi
    | ⟨1, _⟩ => exact tabDot_rhs1 _ _)
  rw [el, er]

/-- The folded table, transposed, at (j, p): Σ_{i<192} patchfeat[p, i]·W1[i, j] + b1[j]. -/
theorem tabJP_apply (mx : FVec Ideal S1x12x256x16 .f32) (W1 : FVec Ideal S204x204 .f32) (b1 : FVec Ideal S204 .f32)
    (j : Fin 204) (p : Fin 256) :
    tabJP mx W1 b1 (ix2 j p) = Cert.Readout.tabK mx W1 b1 p j := by
  unfold tabJP
  rw [truncf_apply]
  refine (transpose_ix2_apply _ transposes_S256x204_S204x256_1_0 j p).trans ?_
  unfold tabPJ
  rw [addf_apply, biasRows_apply]
  show Host.dotGeneral (F := Ideal) tabDot none (flatX mx) (w1Top W1) (ix2 p j) + b1 (ix1 j) = _
  rw [tabDot_apply]
  unfold Cert.Readout.tabK Cert.Readout.pfeat
  congr 1
  exact Finset.sum_congr rfl fun i _ => by rw [flatX_apply, w1Top_apply]

/-! ## Each staged array is its operations' term of the launch arrays -/

theorem V_tab_term (c : Dev nD) :
    (V m c main_v10 : S204x256.Idx → EReal)
      = tabJP (m ((c.tc : Thread nD τ).loc main_arg0)) (m ((c.tc : Thread nD τ).loc main_arg2))
          (m ((c.tc : Thread nD τ).loc main_arg3)) := by
  show StableHlo.after hostOps0 (fun b => m (c, b)) (Proc.devRef .tc main_v10) = _
  after_results
  rfl

theorem V_w1b_term (c : Dev nD) :
    (V m c main_v12 : S204x12.Idx → EReal) = w1BotT (m ((c.tc : Thread nD τ).loc main_arg2)) := by
  show StableHlo.after hostOps0 (fun b => m (c, b)) (Proc.devRef .tc main_v12) = _
  after_results
  rfl

theorem V_w2_term (c : Dev nD) :
    (V m c main_v14 : S12x204.Idx → EReal) = w2T (m ((c.tc : Thread nD τ).loc main_arg4)) := by
  show StableHlo.after hostOps0 (fun b => m (c, b)) (Proc.devRef .tc main_v14) = _
  after_results
  rfl

theorem V_feat_term (c : Dev nD) :
    (V m c main_v15 : S12x200000.Idx → EReal) = featT (m ((c.tc : Thread nD τ).loc main_arg1)) := by
  show StableHlo.after hostOps0 (fun b => m (c, b)) (Proc.devRef .tc main_v15) = _
  after_results
  rfl

theorem V_idx_term (c : Dev nD) :
    (V m c main_v16 : S1x200000.Idx → BitVec 32) = idxRow (m ((c.tc : Thread nD τ).loc main_arg6)) := by
  show StableHlo.after hostOps0 (fun b => m (c, b)) (Proc.devRef .tc main_v16) = _
  after_results
  rfl

/-! ## The staged arrays read at an entry -/

/-- The folded table, transposed (window 2's array). -/
theorem V_tab (c : Dev nD) (j : Fin 204) (p : Fin 256) :
    (V m c main_v10 : S204x256.Idx → EReal) (ix2 j p)
      = Cert.Readout.tabK (m ((c.tc : Thread nD τ).loc main_arg0)) (m ((c.tc : Thread nD τ).loc main_arg2))
          (m ((c.tc : Thread nD τ).loc main_arg3)) p j :=
  (congrFun (V_tab_term m c) (ix2 j p)).trans (tabJP_apply _ _ _ j p)

/-- The last twelve rows of W1, transposed (window 3's array). -/
theorem V_w1b (c : Dev nD) (j : Fin 204) (t : Fin 12) :
    (V m c main_v12 : S204x12.Idx → EReal) (ix2 j t)
      = (m ((c.tc : Thread nD τ).loc main_arg2) : S204x204.Idx → EReal) (ix2 (⟨192 + t.val, by omega⟩ : Fin 204) j) :=
  (congrFun (V_w1b_term m c) (ix2 j t)).trans (w1BotT_apply _ j t)

/-- W2 transposed (window 4's array). -/
theorem V_w2 (c : Dev nD) (o : Fin 12) (j : Fin 204) :
    (V m c main_v14 : S12x204.Idx → EReal) (ix2 o j)
      = (m ((c.tc : Thread nD τ).loc main_arg4) : S204x12.Idx → EReal) (ix2 j o) :=
  (congrFun (V_w2_term m c) (ix2 o j)).trans (w2T_apply _ o j)

/-- The features transposed (window 1's array). -/
theorem V_feat (c : Dev nD) (t : Fin 12) (n : Fin 200000) :
    (V m c main_v15 : S12x200000.Idx → EReal) (ix2 t n)
      = (m ((c.tc : Thread nD τ).loc main_arg1) : S200000x12.Idx → EReal) (ix2 n t) :=
  (congrFun (V_feat_term m c) (ix2 t n)).trans (featT_apply _ t n)

/-- The index row (window 0's array). -/
theorem V_idx (c : Dev nD) (n : Fin 200000) :
    (V m c main_v16 : S1x200000.Idx → BitVec 32) (ix2 (0 : Fin 1) n)
      = (m ((c.tc : Thread nD τ).loc main_arg6) : S200000.Idx → BitVec 32) (ix1 n) :=
  (congrFun (V_idx_term m c) (ix2 (0 : Fin 1) n)).trans (idxRow_apply _ n)

end Cert.KernelIdeal.Hand

end
-- ==== Proof.KDat.lean ====
/-
  The proof data of the pallas_call at the ideal values, the body's obligation at every grid point, and the launch.

  The call streams the index row [1, 200000] and the transposed features [12, 200000] in 49 blocks of 4096 columns
  beside four whole tables, and writes the transposed result [12, 200000] block by block.  The last block overhangs the
  arrays by 704 columns: its fetches leave unnamed words in the buffers' tails, and its write-back moves the leading
  3392 columns only.  Column q of the body's value depends on column q of the two streamed blocks alone, so on the
  columns that are moved the value is the readout whatever the tails hold; the tails are never written back.
-/
import proofs.«417548_j44968307589152_3_alg».proof.Proof.KBody
import proofs.«417548_j44968307589152_3_alg».proof.Proof.KPay
import proofs.«417548_j44968307589152_3_alg».proof.Proof.KHost
import proofs.«417548_j44968307589152_3_alg».proof.Proof.Spec
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The result array in the kernel's layout [12, 200000]: entry (o, n) is the readout at node n, output o. -/
def outT (c : Dev nD) : S12x200000.Idx → EReal := fun y =>
  Cert.Readout.outKAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (y 1) (y 0)

/-- The streamed blocks as the body may find them: the array's block on the columns the fetch moves, `d` elsewhere. -/
abbrev idxBlk (c : Dev nD) (t : Fin cfg0.N) (d : S1x4096.Idx → BitVec 32) : S1x4096.Idx → BitVec 32 :=
  win0_0.fill (grid0.coords t) d (iblk m c 0 t)
abbrev featBlk (c : Dev nD) (t : Fin cfg0.N) (d : S12x4096.Idx → EReal) : S12x4096.Idx → EReal :=
  win0_1.fill (grid0.coords t) d (iblk m c 1 t)

/-- The proof data: the arrays as the region finds them; after the body the two streamed buffers at their blocks
    (filled out with zeros where nothing is moved), the four tables at theirs, the result's buffer at the block of
    `outT` (filled out likewise); the class's invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => idxBlk m c t (fun _ => 0#32)
    | ⟨1, _⟩ => featBlk m c t (fun _ => 0)
    | ⟨2, _⟩ => iblk m c 2 t
    | ⟨3, _⟩ => iblk m c 3 t
    | ⟨4, _⟩ => iblk m c 4 t
    | ⟨5, _⟩ => iblk m c 5 t
    | ⟨6, _⟩ => win0_6.fill (grid0.coords t) (fun _ => (0 : EReal)) ((win0_6.blk t).view.read (Elt Ideal) (outT m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = idxBlk m c t (fun _ => 0#32) := by dsimp only [dats]
theorem after0_1 (c : Dev nD) (t : Fin cfg0.N) : (dats m 0 c).after 1 t = featBlk m c t (fun _ => 0) := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = win0_6.fill (grid0.coords t) (fun _ => (0 : EReal)) ((win0_6.blk t).view.read (Elt Ideal) (outT m c)) := by dsimp only [dats]

/-! ## What the body finds -/

theorem before0_0 (c : Dev nD) (t : Fin cfg0.N) (d) : (dats m 0 c).before 0 t d = idxBlk m c t d := by
  rw [(dats m 0 c).before_fetched 0 t (fetch0_0 t) d]; rfl
theorem before0_1 (c : Dev nD) (t : Fin cfg0.N) (d) : (dats m 0 c).before 1 t d = featBlk m c t d := by
  rw [(dats m 0 c).before_fetched 1 t (fetch0_1 t) d]; rfl
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- The result's buffer is written back at every point, so the body finds it at contents nothing names. -/
theorem before0_6 (c : Dev nD) (t : Fin cfg0.N) (d) : (dats m 0 c).before 6 t d = d := by
  refine (dats m 0 c).before_out_reset 6 rfl t ?_ d
  by_cases ht : t.val = 0
  · exact .inl ht
  · exact .inr ⟨ht, flush0_6 _⟩

/-! ## The value the body stores, on the columns that are moved -/

theorem hz2 : (![0, 0] : Fin 2 → Nat) = fun _ => 0 := funext fun a => by fin_cases a <;> rfl
theorem hz1 : (![0] : Fin 1 → Nat) = fun _ => 0 := funext fun a => by fin_cases a <;> rfl

/-- The body's stored value at output o and column q, over any contents of the six input buffers. -/
theorem outBlk_apply (x0 : Vec Ideal S1x4096 .i32) (x1 : Vec Ideal S12x4096 .f32) (x2 : Vec Ideal S204x256 .bf16)
    (x3 : Vec Ideal S204x12 .bf16) (x4 : Vec Ideal S12x204 .bf16) (x5 : Vec Ideal S12 .f32) (o : Fin 12) (q : Fin 4096) :
    outBlk (F := Ideal) x0 x1 x2 x3 x4 x5 (ix2 o q)
      = (∑ j : Fin 204, x4 (ix2 o j) * max (x2 (ix2 j (Cert.Readout.pidx (x0 (ix2 (0 : Fin 1) q))))
            + ∑ s : Fin 12, x3 (ix2 j s) * x1 (ix2 s q)) 0) + x5 (ix1 o) := by
  unfold outBlk
  rw [View.canon_unit_zero hz2]
  simp only [View.ld_unit_zero (S := S1x4096) hz2, View.ld_unit_zero (S := S12x4096) hz2, View.ld_unit_zero (S := S204x256) hz2,
    View.ld_unit_zero (S := S204x12) hz2, View.ld_unit_zero (S := S12x204) hz2, View.ld_unit_zero (S := S12) hz1]
  exact pay_apply x0 x2 x1 x3 x4 x5 o q

/-- The printed index maps and cuts, decided over the grid: the three streamed windows sit at block (0, t) and cut
    alike; block t's moved columns end inside the array. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_6.index t (0 : Fin 2) = 0 ∧ win0_6.index t (1 : Fin 2) = t.val
    ∧ win0_0.xsize (grid0.coords t) (0 : Fin 2) = 1 ∧ win0_1.xsize (grid0.coords t) (0 : Fin 2) = 12
    ∧ win0_6.xsize (grid0.coords t) (0 : Fin 2) = 12
    ∧ win0_0.xsize (grid0.coords t) (1 : Fin 2) = win0_6.xsize (grid0.coords t) (1 : Fin 2)
    ∧ win0_1.xsize (grid0.coords t) (1 : Fin 2) = win0_6.xsize (grid0.coords t) (1 : Fin 2)
    ∧ t.val * 4096 + win0_6.xsize (grid0.coords t) (1 : Fin 2) ≤ 200000
    ∧ win0_6.xsize (grid0.coords t) (1 : Fin 2) ≤ 4096 :=
  (by decide +kernel : ∀ t : Fin grid0.N, _)

/-- The four tables' windows sit at block 0 on every axis. -/
theorem tab_facts : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 :=
  (by decide +kernel : ∀ t : Fin grid0.N, _)

/-- A filled block at an entry the transfer moves is the block's entry. -/
theorem fill_moved {G : Pipeline.Grid} (w : Window sig G) {α : Type} (i : G.Coords) (d : w.block.Idx → α)
    (g : (w.xblock i).Idx → α) (y : w.block.Idx) (h : ∀ a, (y a).val < w.xsize i a) :
    w.fill i d g y = g fun a => ⟨(y a).val, h a⟩ := by
  unfold Window.fill; rw [dif_pos ((w.moved_iff i y).mpr h)]

/-- The index block at a moved column q of point t is node t·4096 + q's index word. -/
theorem idx_read (c : Dev nD) (t : Fin cfg0.N) (d0 : S1x4096.Idx → BitVec 32) (q : Fin 4096)
    (hq : q.val < win0_6.xsize (grid0.coords t) (1 : Fin 2)) (hn : t.val * 4096 + q.val < 200000) :
    idxBlk m c t d0 (ix2 (0 : Fin 1) q)
      = (m ((c.tc : Thread nD τ).loc main_arg6) : S200000.Idx → BitVec 32) (ix1 (⟨t.val * 4096 + q.val, hn⟩ : Fin 200000)) := by
  obtain ⟨e00, e01, -, -, -, -, x00, -, -, x01, -, -, -⟩ := idx_facts t
  rw [← V_idx m c]
  refine (fill_moved win0_0 (grid0.coords t) d0 (iblk m c 0 t) (ix2 (0 : Fin 1) q) (fun a => by
    match a with
    | ⟨0, _⟩ => show 0 < win0_0.xsize (grid0.coords t) (0 : Fin 2); omega
    | ⟨1, _⟩ => show q.val < win0_0.xsize (grid0.coords t) (1 : Fin 2); omega)).trans ?_
  show V m c main_v16 ((win0_0.blk t).view.emb _) = V m c main_v16 _
  congr 1
  funext a; apply Fin.ext
  match a with
  | ⟨0, _⟩ => show win0_0.index t (0 : Fin 2) * 1 + 1 * 0 = 0; omega
  | ⟨1, _⟩ => show win0_0.index t (1 : Fin 2) * 4096 + 1 * q.val = t.val * 4096 + q.val; omega

/-- The feature block at row s and a moved column q of point t is feature s of node t·4096 + q. -/
theorem feat_read (c : Dev nD) (t : Fin cfg0.N) (d1 : S12x4096.Idx → EReal) (s : Fin 12) (q : Fin 4096)
    (hq : q.val < win0_6.xsize (grid0.coords t) (1 : Fin 2)) (hn : t.val * 4096 + q.val < 200000) :
    featBlk m c t d1 (ix2 s q)
      = (m ((c.tc : Thread nD τ).loc main_arg1) : S200000x12.Idx → EReal) (ix2 (⟨t.val * 4096 + q.val, hn⟩ : Fin 200000) s) := by
  obtain ⟨-, -, e10, e11, -, -, -, x10, -, -, x11, -, -⟩ := idx_facts t
  rw [← V_feat m c]
  refine (fill_moved win0_1 (grid0.coords t) d1 (iblk m c 1 t) (ix2 s q) (fun a => by
    match a with
    | ⟨0, _⟩ => show s.val < win0_1.xsize (grid0.coords t) (0 : Fin 2); have := s.isLt; omega
    | ⟨1, _⟩ => show q.val < win0_1.xsize (grid0.coords t) (1 : Fin 2); omega)).trans ?_
  show V m c main_v15 ((win0_1.blk t).view.emb _) = V m c main_v15 _
  congr 1
  funext a; apply Fin.ext
  match a with
  | ⟨0, _⟩ => show win0_1.index t (0 : Fin 2) * 12 + 1 * s.val = s.val; omega
  | ⟨1, _⟩ => show win0_1.index t (1 : Fin 2) * 4096 + 1 * q.val = t.val * 4096 + q.val; omega

/-- The tables' blocks are their whole arrays. -/
theorem tab_read (c : Dev nD) (t : Fin cfg0.N) (j : Fin 204) (p : Fin 256) :
    (iblk m c 2 t : S204x256.Idx → EReal) (ix2 j p) = (V m c main_v10 : S204x256.Idx → EReal) (ix2 j p) := by
  obtain ⟨e0, e1, -, -, -, -, -⟩ := tab_facts t
  show V m c main_v10 ((win0_2.blk t).view.emb (ix2 j p)) = V m c main_v10 (ix2 j p)
  congr 1
  funext a; apply Fin.ext
  match a with
  | ⟨0, _⟩ => show win0_2.index t (0 : Fin 2) * 204 + 1 * j.val = j.val; omega
  | ⟨1, _⟩ => show win0_2.index t (1 : Fin 2) * 256 + 1 * p.val = p.val; omega
theorem w1b_read (c : Dev nD) (t : Fin cfg0.N) (j : Fin 204) (s : Fin 12) :
    (iblk m c 3 t : S204x12.Idx → EReal) (ix2 j s) = (V m c main_v12 : S204x12.Idx → EReal) (ix2 j s) := by
  obtain ⟨-, -, e0, e1, -, -, -⟩ := tab_facts t
  show V m c main_v12 ((win0_3.blk t).view.emb (ix2 j s)) = V m c main_v12 (ix2 j s)
  congr 1
  funext a; apply Fin.ext
  match a with
  | ⟨0, _⟩ => show win0_3.index t (0 : Fin 2) * 204 + 1 * j.val = j.val; omega
  | ⟨1, _⟩ => show win0_3.index t (1 : Fin 2) * 12 + 1 * s.val = s.val; omega
theorem w2_read (c : Dev nD) (t : Fin cfg0.N) (o : Fin 12) (j : Fin 204) :
    (iblk m c 4 t : S12x204.Idx → EReal) (ix2 o j) = (V m c main_v14 : S12x204.Idx → EReal) (ix2 o j) := by
  obtain ⟨-, -, -, -, e0, e1, -⟩ := tab_facts t
  show V m c main_v14 ((win0_4.blk t).view.emb (ix2 o j)) = V m c main_v14 (ix2 o j)
  congr 1
  funext a; apply Fin.ext
  match a with
  | ⟨0, _⟩ => show win0_4.index t (0 : Fin 2) * 12 + 1 * o.val = o.val; omega
  | ⟨1, _⟩ => show win0_4.index t (1 : Fin 2) * 204 + 1 * j.val = j.val; omega
theorem b2_read (c : Dev nD) (t : Fin cfg0.N) (o : Fin 12) :
    (iblk m c 5 t : S12.Idx → EReal) (ix1 o) = (m ((c.tc : Thread nD τ).loc main_arg5) : S12.Idx → EReal) (ix1 o) := by
  obtain ⟨-, -, -, -, -, -, e0⟩ := tab_facts t
  rw [← V_main_arg5 m c]
  show V m c main_arg5 ((win0_5.blk t).view.emb (ix1 o)) = V m c main_arg5 (ix1 o)
  congr 1
  funext a; apply Fin.ext
  match a with
  | ⟨0, _⟩ => show win0_5.index t (0 : Fin 1) * 12 + 1 * o.val = o.val; omega

/-- The body's value at output o and a moved column q of point t is the readout at node t·4096 + q. -/
theorem pay_at (c : Dev nD) (t : Fin cfg0.N) (d0 : S1x4096.Idx → BitVec 32) (d1 : S12x4096.Idx → EReal) (o : Fin 12) (q : Fin 4096)
    (hq : q.val < win0_6.xsize (grid0.coords t) (1 : Fin 2)) :
    outBlk (F := Ideal) (idxBlk m c t d0) (featBlk m c t d1) (iblk m c 2 t) (iblk m c 3 t) (iblk m c 4 t) (iblk m c 5 t) (ix2 o q)
      = outT m c (ix2 o (⟨t.val * 4096 + q.val, by have := (idx_facts t).2.2.2.2.2.2.2.2.2.2.2.1; omega⟩ : Fin 200000)) := by
  have hn : t.val * 4096 + q.val < 200000 := by have := (idx_facts t).2.2.2.2.2.2.2.2.2.2.2.1; omega
  refine (outBlk_apply (idxBlk m c t d0) (featBlk m c t d1) (iblk m c 2 t) (iblk m c 3 t) (iblk m c 4 t) (iblk m c 5 t) o q).trans ?_
  show _ = Cert.Readout.outKAt _ _ _ _ _ _ _ (⟨t.val * 4096 + q.val, hn⟩ : Fin 200000) o
  unfold Cert.Readout.outKAt Cert.Readout.hidK
  have e0 := idx_read m c t d0 q hq hn
  refine congrArg₂ (· + ·) (Finset.sum_congr rfl fun j _ => ?_) (b2_read m c t o)
  refine congrArg₂ (· * ·) ((w2_read m c t o j).trans (V_w2 m c o j)) ?_
  refine congrArg (max · 0) ?_
  refine congrArg₂ (· + ·) ?_ (Finset.sum_congr rfl fun s _ =>
    congrArg₂ (· * ·) ((w1b_read m c t j s).trans (V_w1b m c j s)) (feat_read m c t d1 s q hq hn))
  rw [e0]
  exact (tab_read m c t j _).trans (V_tab m c j _)

/-- On the columns the write-back at point `t` moves, what the body stores is the block of `outT` there, whatever
    the two streamed buffers hold past the arrays' end. -/
theorem pay_cut (c : Dev nD) (t : Fin cfg0.N) (d0 : S1x4096.Idx → BitVec 32) (d1 : S12x4096.Idx → EReal) :
    win0_6.cut (grid0.coords t) (outBlk (F := Ideal) (idxBlk m c t d0) (featBlk m c t d1) (iblk m c 2 t) (iblk m c 3 t) (iblk m c 4 t) (iblk m c 5 t))
      = (win0_6.blk t).view.read (Elt Ideal) (outT m c) := by
  obtain ⟨-, -, -, -, e60, e61, -, -, x60, -, -, hle, hx⟩ := idx_facts t
  funext j
  have ho' : (j 0).val < win0_6.xsize (grid0.coords t) (0 : Fin 2) := (j 0).isLt
  have ho : (j 0).val < 12 := by omega
  have hq : (j 1).val < win0_6.xsize (grid0.coords t) (1 : Fin 2) := (j 1).isLt
  have hq' : (j 1).val < 4096 := by omega
  have hn : t.val * 4096 + (j 1).val < 200000 := by omega
  show outBlk (F := Ideal) (idxBlk m c t d0) (featBlk m c t d1) (iblk m c 2 t) (iblk m c 3 t) (iblk m c 4 t) (iblk m c 5 t)
      (win0_6.xinj (grid0.coords t) j) = outT m c ((win0_6.blk t).view.emb j)
  have hL : win0_6.xinj (grid0.coords t) j = ix2 (⟨(j 0).val, ho⟩ : Fin 12) (⟨(j 1).val, hq'⟩ : Fin 4096) := by
    funext a; apply Fin.ext
    match a with
    | ⟨0, _⟩ => rfl
    | ⟨1, _⟩ => rfl
  have hR : (win0_6.blk t).view.emb j = ix2 (⟨(j 0).val, ho⟩ : Fin 12) (⟨t.val * 4096 + (j 1).val, hn⟩ : Fin 200000) := by
    funext a; apply Fin.ext
    match a with
    | ⟨0, _⟩ => show win0_6.index t (0 : Fin 2) * 12 + 1 * (j 0).val = (j 0).val; omega
    | ⟨1, _⟩ => show win0_6.index t (1 : Fin 2) * 4096 + 1 * (j 1).val = t.val * 4096 + (j 1).val; omega
  rw [hL, hR]
  exact pay_at m c t d0 d1 ⟨(j 0).val, ho⟩ ⟨(j 1).val, hq'⟩ hq

/-! ## The body obligation -/

/-- What the body is called with at point `t`: the invariant, the core's owings, and the seven current staging buffers
    at what the pipeline leaves in them. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns: the tables' buffers at their blocks; the three clipped windows' buffers stated on the columns their
    transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare (win0_6.fill (grid0.coords t) d (win0_6.cut (grid0.coords t) ((dats m 0 c).after 6 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before0_0 m c t d0, before0_1 m c t d1, before0_2 m c t d2, before0_3 m c t d3, before0_4 m c t d4,
    before0_5 m c t d5, before0_6 m c t d6]
  iapply (sound_kernel (F := Ideal) c Set.univ (grid0.coords t) _ _ _ _ _ _ _ _ _ _ _ _ _ _
    (idxBlk m c t d0) (featBlk m c t d1) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]
  · iexists d0; rw [after0_0, win0_0.cut_fill]; iexact H0
  isplitl [H1]
  · iexists d1; rw [after0_1, win0_1.cut_fill]; iexact H1
  isplitl [H2]; · rw [after0_2]; iexact H2
  isplitl [H3]; · rw [after0_3]; iexact H3
  isplitl [H4]; · rw [after0_4]; iexact H4
  isplitl [H5]; · rw [after0_5]; iexact H5
  iexists (outBlk (F := Ideal) (idxBlk m c t d0) (featBlk m c t d1) (iblk m c 2 t) (iblk m c 3 t) (iblk m c 4 t) (iblk m c 5 t))
  rw [after0_6, win0_6.cut_fill, ← pay_cut m c t d0 d1, win0_6.fill_cut]
  iexact H6

/-- The library's body obligation, every clipped window stated on its moved part. -/
theorem body_obligation (c : Dev nD) : BodyObligationLoose (dats m 0 c) (defs₀ (F := Ideal)) Variants.none () Set.univ := fun t => by
  rw [bigSep_W0, bigSep_W0]
  exact sound_body m c t

/-! ## The launch -/

set_option backward.isDefEq.respectTransparency.types false in
/-- From any memory with zero counters every weakly fair execution of @main terminates, every array of the pipeline
    ends at what the write-backs of the proof data make of it, and every other buffer as the host lines after the
    region leave it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Hand

end
-- ==== Proof.KValue.lean ====
/-
  The idealized kernel program at the ideal values: it runs to the end, leaves its arguments as they were, and its
  result array is the readout `Cert.Readout.outK` of the argument arrays.

  Node n lies in block n / 4096, whose write-back moves it (the last block's moved columns end exactly at the array's
  end), so after the 49 write-backs the result array in the kernel's layout [12, 200000] is the readout transposed; the
  two host lines after the call transpose it back and add the leading unit axis.
-/
import proofs.«417548_j44968307589152_3_alg».proof.Defs
import proofs.«417548_j44968307589152_3_alg».proof.Proof.Gen.Pre_finite_inputs
import proofs.«417548_j44968307589152_3_alg».proof.Proof.Spec
import proofs.«417548_j44968307589152_3_alg».proof.Proof.KDat
import Idealize.ShloMosaic.Lib.ValueLayout
import Idealize.ShloMosaic.Lib.StableHlo.Run

set_option maxRecDepth 16384

noncomputable section

namespace Cert.KernelIdeal.Hand

open Cert.KernelIdeal Cert.KernelIdeal.Gen Cert.KernelIdeal.Facts Cert.KernelIdeal.Facts₀
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- Every block but the last moves all 4096 columns; the last one's moved columns end at the array's end. -/
theorem cover_facts : ∀ t : Fin cfg0.N,
    win0_6.xsize (grid0.coords t) (1 : Fin 2) = 4096 ∨ t.val * 4096 + win0_6.xsize (grid0.coords t) (1 : Fin 2) = 200000 :=
  (by decide +kernel : ∀ t : Fin grid0.N, _)

/-- An entry of the result array is in point t's block iff each coordinate is in the block's moved range. -/
theorem mem_blk6 (t : Fin cfg0.N) (i : S12x200000.Idx) :
    i ∈ ((cfg0.win 6).blk t).view.set ↔ ∀ a : Fin 2, win0_6.index t a * S12x4096.size a ≤ (i a).val
      ∧ (i a).val < win0_6.index t a * S12x4096.size a + win0_6.xsize (grid0.coords t) a := by
  show i ∈ ((View.whole main_v17).slice (win0_6.rect t)).set ↔ _
  rw [View.set_slice_whole, Rect.mem_set_unit]
  exact Iff.rfl

/-- After the write-backs the result array in the kernel's layout is `outT`. -/
theorem final6 (c : Dev nD) : (dats m 0 c).arrAt 6 cfg0.N = outT m c :=
  (dats m 0 c).arrAt_eq_of_cover 6 (outT m c)
    (fun t _ => by
      show (cfg0.win 6).cut (grid0.coords t) ((dats m 0 c).after 6 t) = _
      rw [after0_6]; exact win0_6.cut_fill _ _ _)
    (fun i => by
      have hi0 : (i 0).val < 12 := (i 0).isLt
      have hi1 : (i 1).val < 200000 := (i 1).isLt
      obtain ⟨t, ht⟩ : ∃ t : Fin cfg0.N, t.val = (i 1).val / 4096 := ⟨⟨(i 1).val / 4096, by show _ < 49; omega⟩, rfl⟩
      refine ⟨t, flush0_6 t, ?_⟩
      rw [mem_blk6]
      obtain ⟨-, -, -, -, e60, e61, -, -, x60, -, -, -, -⟩ := idx_facts t
      have hc := cover_facts t
      intro a
      match a with
      | ⟨0, _⟩ =>
        show win0_6.index t (0 : Fin 2) * 12 ≤ (i 0).val ∧ (i 0).val < win0_6.index t (0 : Fin 2) * 12 + win0_6.xsize (grid0.coords t) (0 : Fin 2)
        omega
      | ⟨1, _⟩ =>
        show win0_6.index t (1 : Fin 2) * 4096 ≤ (i 1).val ∧ (i 1).val < win0_6.index t (1 : Fin 2) * 4096 + win0_6.xsize (grid0.coords t) (1 : Fin 2)
        omega)

/-- The result buffer after the two host lines that follow the call: the transposed array transposed back, under a
    leading unit axis; entry (0, n, o) is the readout at node n, output o. -/
theorem v19_eq (c : Dev nD) :
    (Pipeline.afterTail₀ cfgs (dats m) 0 (V0 m) [hostOps1] c main_v19 : S1x200000x12.Idx → EReal)
      = Cert.Readout.outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have e : Pipeline.withArrays spec0 c (V0 m c) (fun w => (dats m 0 c).arrAt w cfg0.N) (Proc.devRef .tc (Pipeline.arrRef spec0 6))
      = outT m c := (Pipeline.withArrays_arr spec0 launch0.win.arr_inj c _ _ 6).trans (final6 m c)
  unfold Pipeline.afterTail₀
  show StableHlo.after hostOps1 _ (Proc.devRef .tc main_v19) = _
  after_results
  have e' : Pipeline.withArrays (cfgs 0).spec c (V0 m c) (fun w => (dats m 0 c).arrAt w (cfgs 0).N) (Proc.devRef .tc main_v17)
      = outT m c := e
  rw [e']
  funext y
  obtain ⟨z, n, o, rfl⟩ : ∃ (z : Fin 1) (n : Fin 200000) (o : Fin 12), y = ix3 z n o := ⟨y 0, y 1, y 2, eq_ix3 y⟩
  refine (broadcastInDim_apply _ _ _ _ (ix2 n o) (fun a => by
    match a with
    | ⟨0, _⟩ => exact (if_neg (show ¬(200000 : ℕ) = 1 by decide)).symm
    | ⟨1, _⟩ => exact (if_neg (show ¬(12 : ℕ) = 1 by decide)).symm)).trans ?_
  refine (transpose_ix2_apply _ _ n o).trans ?_
  rfl

/-- The run, read: the result at the readout, the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v19) = Cert.Readout.outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v19 (Pipeline.mem_restRefs_of main_v19 (by decide) (by decide))).trans (v19_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c))⟩)
    (run_main m ρ)

end Cert.KernelIdeal.Hand

end
-- ==== Proof.RefTerm.lean ====
/-
  The reference's result as one term of its argument arrays: its host operations composed in order, the gather function
  and the relu inlined where they are called.
-/
import proofs.«417548_j44968307589152_3_alg».proof.ReferenceIdeal
import proofs.«417548_j44968307589152_3_alg».proof.Proof.Gen.ReferenceIdeal

noncomputable section

namespace Cert.ReferenceIdeal.Hand

open Idealize.ShloMosaic Cert.ReferenceIdeal Cert.ReferenceIdeal.Facts Cert.ReferenceIdeal.Facts₀

variable {F : FTy → Type} [FloatOps F]

/-- The per-patch flattened features [1, 256, 192]: the transpose to [1, 256, 12, 16], reshaped. -/
def patchFeat (a0 : FVec F S1x12x256x16 .f32) : FVec F S1x256x192 .f32 :=
  shapeCast S1x256x192 (transpose S1x256x12x16 [0, 2, 1, 3] a0 transposes_S1x12x256x16_S1x256x12x16_0_2_1_3)
    shapeCasts_S1x256x12x16_S1x256x192

/-- The index column [200000, 1] the gather reads: a negative index has 256 added to it. -/
def takeIdx (a6 : IVec S200000 32) : IVec S200000x1 32 :=
  broadcastInDim S200000x1 ![0] bcast_S200000_S200000x1_0
    (select (cmpi .slt a6 (broadcastInDim S200000 ![] bcast_S_S200000 (constantI S_ 32 0#32)))
      (addi a6 (broadcastInDim S200000 ![] bcast_S_S200000 (constantI S_ 32 256#32))) a6)

/-- Per node, whether that index lies in 0..255. -/
def takeOk (a6 : IVec S200000 32) : IVec S200000 1 :=
  (fun x v => Host.reduce IntOp.andi x v reducesTo_S200000x1_S200000_d1 h_S_)
    (andi (cmpi .sge (takeIdx a6) (broadcastInDim S200000x1 ![] bcast_S_S200000x1 (constantI S_ 32 0#32)))
      (cmpi .sle (takeIdx a6) (broadcastInDim S200000x1 ![0, 1] bcast_S1x1_S200000x1_0_1
        (broadcastInDim S1x1 ![1] bcast_S1_S1x1_1 (constantI S1 32 255#32)))))
    (constantI S_ 1 1#1)

/-- The gathered patch rows [1, 200000, 192], NaN where the index is out of range. -/
def takeOut (a0 : FVec F S1x12x256x16 .f32) (a6 : IVec S200000 32) : FVec F S1x200000x192 .f32 :=
  select (broadcastInDim S1x200000x192 ![1] bcast_S200000_S1x200000x192_1 (takeOk a6))
    (Host.gather gather_S1x256x192_S200000x1_S1x200000x192_02_1_n_n_1_1_11192 (patchFeat a0) (takeIdx a6))
    (broadcastInDim S1x200000x192 ![] bcast_S_S1x200000x192 (constant S_ .f32 0x7FC00000#32))

/-- The input rows [1, 200000, 204]: the gathered patch rows beside the nodes' own features. -/
def rows (a0 : FVec F S1x12x256x16 .f32) (a1 : FVec F S200000x12 .f32) (a6 : IVec S200000 32) : FVec F S1x200000x204 .f32 :=
  concatenate S1x200000x204 2 [⟨S1x200000x192, takeOut a0 a6⟩,
    ⟨S1x200000x12, broadcastInDim S1x200000x12 ![1, 2] bcast_S200000x12_S1x200000x12_1_2 a1⟩]
    concatenates_S1x200000x192_S1x200000x12_S1x200000x204_d2

/-- The hidden layer [1, 200000, 204]: relu(rows · W1 + b1). -/
def hidden (a0 : FVec F S1x12x256x16 .f32) (a1 : FVec F S200000x12 .f32) (a2 : FVec F S204x204 .f32) (a3 : FVec F S204 .f32)
    (a6 : IVec S200000 32) : FVec F S1x200000x204 .f32 :=
  maximumf
    (addf (Host.dotGeneral dot_S1x200000x204_S204x204_S1x200000x204_2_0_01_1_n_n none (rows a0 a1 a6) a2)
      (broadcastInDim S1x200000x204 ![0, 1, 2] bcast_S1x1x204_S1x200000x204_0_1_2 (broadcastInDim S1x1x204 ![2] bcast_S204_S1x1x204_2 a3)))
    (broadcastInDim S1x200000x204 ![] bcast_S_S1x200000x204 (constant S_ .f32 0x00000000#32))

/-- The reference's result [1, 200000, 12]: hidden · W2 + b2. -/
def refOut (a0 : FVec F S1x12x256x16 .f32) (a1 : FVec F S200000x12 .f32) (a2 : FVec F S204x204 .f32) (a3 : FVec F S204 .f32)
    (a4 : FVec F S204x12 .f32) (a5 : FVec F S12 .f32) (a6 : IVec S200000 32) : FVec F S1x200000x12 .f32 :=
  addf (Host.dotGeneral dot_S1x200000x204_S204x12_S1x200000x12_2_0_01_1_n_n none (hidden a0 a1 a2 a3 a6) a4)
    (broadcastInDim S1x200000x12 ![0, 1, 2] bcast_S1x1x12_S1x200000x12_0_1_2 (broadcastInDim S1x1x12 ![2] bcast_S12_S1x1x12_2 a5))

end Cert.ReferenceIdeal.Hand

end
-- ==== Proof.RefRun.lean ====
/-
  The reference program's run: its host operations in order, the called functions' operations at their call sites;
  every weakly fair execution ends with the result buffer at `refOut` of the argument arrays and the arguments as
  they were.
-/
import proofs.«417548_j44968307589152_3_alg».proof.Defs
import proofs.«417548_j44968307589152_3_alg».proof.Proof.Gen.ReferenceIdeal
import proofs.«417548_j44968307589152_3_alg».proof.Proof.RefTerm
import Idealize.ShloMosaic.Lib.StableHlo.Run

noncomputable section

namespace Cert.ReferenceIdeal.Hand

open Idealize.ShloMosaic Idealize.SL.Sem Cert.ReferenceIdeal

variable {F : FTy → Type} [FloatOps F]

section Line

open Idealize.ShloMosaic.TcCoe Idealize.ShloMosaic.StableHlo Cert.ReferenceIdeal.Gen

/-- @main's thirty-eight operations in order, the calls unfolded: the transpose and the reshape; the gather function's
    twenty-three into `main_call0`'s buffers (the zero and its broadcast, the sign test, 256 and its broadcast, the sum,
    the select function's one select into `main_call0.call0`'s buffer, the index column, the bounds 255 and 0 with their
    broadcasts, the two comparisons, their conjunction, its reduction along the column axis, the gather, the test's
    broadcast, the NaN and its broadcast, the select); the node features' broadcast, the concatenation, the first
    product with its bias broadcast twice and added; the relu's three into `main_call1`'s buffers (the zero, its
    broadcast, the maximum); the second product with its bias broadcast twice and added. -/
abbrev ops : List (HloOp τ sig (Elt F)) :=
  [ unary main_arg0 main_v0 ((transpose S1x256x12x16 [0, 2, 1, 3] · transposes_S1x12x256x16_S1x256x12x16_0_2_1_3) : (⟨S1x12x256x16, .f32⟩ : BufTy).Contents (Elt F) → (⟨S1x256x12x16, .f32⟩ : BufTy).Contents (Elt F)),
    reshape main_v0 main_v1 rfl shapeCasts_S1x256x12x16_S1x256x192,
    TRef.nullary main_call0.c (constantI S_ 32 0#32),
    TRef.unary main_call0.c main_call0.v0 (broadcastInDim S200000 ![] bcast_S_S200000),
    TRef.binary (.of main_arg6) main_call0.v0 main_call0.v1 (cmpi .slt),
    TRef.nullary main_call0.c_0 (constantI S_ 32 256#32),
    TRef.unary main_call0.c_0 main_call0.v2 (broadcastInDim S200000 ![] bcast_S_S200000),
    TRef.binary (.of main_arg6) main_call0.v2 main_call0.v3 addi,
    TRef.ternary main_call0.v1 main_call0.v3 (.of main_arg6) main_call0.call0.v0 select,
    TRef.unary main_call0.call0.v0 main_call0.v5 (broadcastInDim S200000x1 ![0] bcast_S200000_S200000x1_0),
    TRef.nullary main_call0.c_1 (constantI S1 32 255#32),
    TRef.nullary main_call0.c_2 (constantI S_ 32 0#32),
    TRef.unary main_call0.c_2 main_call0.v6 (broadcastInDim S200000x1 ![] bcast_S_S200000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S200000x1 ![0, 1] bcast_S1x1_S200000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S200000x1_S200000_d1 h_S_),
    TRef.binary (.of main_v1) main_call0.v5 main_call0.v13 (fun x i => Host.gather gather_S1x256x192_S200000x1_S1x200000x192_02_1_n_n_1_1_11192 x i),
    TRef.unary main_call0.v12 main_call0.v14 (broadcastInDim S1x200000x192 ![1] bcast_S200000_S1x200000x192_1),
    TRef.nullary main_call0.cst (constant S_ .f32 0x7FC00000#32),
    TRef.unary main_call0.cst main_call0.v15 (broadcastInDim S1x200000x192 ![] bcast_S_S1x200000x192),
    TRef.ternary main_call0.v14 main_call0.v13 main_call0.v15 main_call0.v16 select,
    unary main_arg1 main_v3 (broadcastInDim S1x200000x12 ![1, 2] bcast_S200000x12_S1x200000x12_1_2 : (⟨S200000x12, .f32⟩ : BufTy).Contents (Elt F) → (⟨S1x200000x12, .f32⟩ : BufTy).Contents (Elt F)),
    binary main_v2 main_v3 main_v4 ((fun a b => concatenate S1x200000x204 2 [⟨S1x200000x192, a⟩, ⟨S1x200000x12, b⟩] concatenates_S1x200000x192_S1x200000x12_S1x200000x204_d2) : (⟨S1x200000x192, .f32⟩ : BufTy).Contents (Elt F) → (⟨S1x200000x12, .f32⟩ : BufTy).Contents (Elt F) → (⟨S1x200000x204, .f32⟩ : BufTy).Contents (Elt F)),
    binary main_v4 main_arg2 main_v5 ((fun l r => Host.dotGeneral dot_S1x200000x204_S204x204_S1x200000x204_2_0_01_1_n_n none l r) : (⟨S1x200000x204, .f32⟩ : BufTy).Contents (Elt F) → (⟨S204x204, .f32⟩ : BufTy).Contents (Elt F) → (⟨S1x200000x204, .f32⟩ : BufTy).Contents (Elt F)),
    unary main_arg3 main_v6 (broadcastInDim S1x1x204 ![2] bcast_S204_S1x1x204_2 : (⟨S204, .f32⟩ : BufTy).Contents (Elt F) → (⟨S1x1x204, .f32⟩ : BufTy).Contents (Elt F)),
    unary main_v6 main_v7 (broadcastInDim S1x200000x204 ![0, 1, 2] bcast_S1x1x204_S1x200000x204_0_1_2 : (⟨S1x1x204, .f32⟩ : BufTy).Contents (Elt F) → (⟨S1x200000x204, .f32⟩ : BufTy).Contents (Elt F)),
    binary main_v5 main_v7 main_v8 (addf : (⟨S1x200000x204, .f32⟩ : BufTy).Contents (Elt F) → (⟨S1x200000x204, .f32⟩ : BufTy).Contents (Elt F) → (⟨S1x200000x204, .f32⟩ : BufTy).Contents (Elt F)),
    TRef.nullary main_call1.cst (constant S_ .f32 0x00000000#32),
    TRef.unary main_call1.cst main_call1.v0 (broadcastInDim S1x200000x204 ![] bcast_S_S1x200000x204),
    TRef.binary (.of main_v8) main_call1.v0 main_call1.v1 maximumf,
    binary main_v9 main_arg4 main_v10 ((fun l r => Host.dotGeneral dot_S1x200000x204_S204x12_S1x200000x12_2_0_01_1_n_n none l r) : (⟨S1x200000x204, .f32⟩ : BufTy).Contents (Elt F) → (⟨S204x12, .f32⟩ : BufTy).Contents (Elt F) → (⟨S1x200000x12, .f32⟩ : BufTy).Contents (Elt F)),
    unary main_arg5 main_v11 (broadcastInDim S1x1x12 ![2] bcast_S12_S1x1x12_2 : (⟨S12, .f32⟩ : BufTy).Contents (Elt F) → (⟨S1x1x12, .f32⟩ : BufTy).Contents (Elt F)),
    unary main_v11 main_v12 (broadcastInDim S1x200000x12 ![0, 1, 2] bcast_S1x1x12_S1x200000x12_0_1_2 : (⟨S1x1x12, .f32⟩ : BufTy).Contents (Elt F) → (⟨S1x200000x12, .f32⟩ : BufTy).Contents (Elt F)),
    binary main_v10 main_v12 main_v13 (addf : (⟨S1x200000x12, .f32⟩ : BufTy).Contents (Elt F) → (⟨S1x200000x12, .f32⟩ : BufTy).Contents (Elt F) → (⟨S1x200000x12, .f32⟩ : BufTy).Contents (Elt F)) ]

-- thirty-eight binds re-associated: the rewrite under the chain recurses once per statement
set_option maxRecDepth 1024 in
/-- @main is that straight line: the three functions' definitions unfolded at their calls and the records at their
    fields, both sides are one chain of `hlo` steps once sequencing is re-associated. -/
theorem main_eq (c : Dev nD) : main (F := F) c = seq ops := by
  simp only [main, fn_take.body, fn_where.body, fn_relu.body, seq, bind_assoc, pure_bind]

/-- The signature scopes no TensorCore buffer. -/
theorem scopedRefs_eq : (Finset.univ.filter fun b : Ref sig .tc => b.isScoped) = ∅ := by decide
/-- The signature has no semaphore, so none is scoped. -/
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  ⟨unary_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., binary_bufs_sub .., binary_bufs_sub .., unary_bufs_sub .., unary_bufs_sub .., binary_bufs_sub ..,
    nullary_bufs_sub .., unary_bufs_sub .., binary_bufs_sub ..,
    binary_bufs_sub .., unary_bufs_sub .., unary_bufs_sub .., binary_bufs_sub ..⟩

/-- From any memory with zero counters every weakly fair execution of @main on the TensorCores terminates, and every
    final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.gather concatenate in
set_option maxRecDepth 8192 in
set_option maxHeartbeats 2000000 in
/-- The fold at the result buffer is `refOut` of the argument arrays by computation: the fold unrolled, each
    operation's result rewritten to its function's value at the buffer it writes and to what was there at every other
    buffer, outermost first; what is left is the operations' composition over the argument arrays, with the typed
    references' casts around each value, which are the identity at these literal references. The reduction, the gather
    and the concatenation are kept folded meanwhile: the equation never looks inside them (the two products are the
    float values' own, opaque already). -/
theorem out_eq (V : Valuation τ sig (Elt F)) :
    after ops V (main_v13 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results
  rfl

/-! An argument buffer is the result buffer of no operation of the line, so the fold leaves it at its launch contents:
    one lemma per argument. -/

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

theorem arg2_eq (V : Valuation τ sig (Elt F)) :
    after ops V (main_arg2 : DevRef τ sig) = V (main_arg2 : DevRef τ sig) := by
  after_results

theorem arg3_eq (V : Valuation τ sig (Elt F)) :
    after ops V (main_arg3 : DevRef τ sig) = V (main_arg3 : DevRef τ sig) := by
  after_results

theorem arg4_eq (V : Valuation τ sig (Elt F)) :
    after ops V (main_arg4 : DevRef τ sig) = V (main_arg4 : DevRef τ sig) := by
  after_results

theorem arg5_eq (V : Valuation τ sig (Elt F)) :
    after ops V (main_arg5 : DevRef τ sig) = V (main_arg5 : DevRef τ sig) := by
  after_results

theorem arg6_eq (V : Valuation τ sig (Elt F)) :
    after ops V (main_arg6 : DevRef τ sig) = V (main_arg6 : DevRef τ sig) := by
  after_results

end Line

theorem run_term (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v13) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  exact (θ_run defs _ _).mono
    (fun _ h c => ⟨(h c main_v13).trans (out_eq _), (h c main_arg0).trans (arg0_eq _), (h c main_arg1).trans (arg1_eq _),
      (h c main_arg2).trans (arg2_eq _), (h c main_arg3).trans (arg3_eq _), (h c main_arg4).trans (arg4_eq _),
      (h c main_arg5).trans (arg5_eq _), (h c main_arg6).trans (arg6_eq _)⟩)
    (run_main m ρ)

end Cert.ReferenceIdeal.Hand

end
-- ==== Proof.RefRead.lean ====
/-
  The reference's result term read index by index at the ideal values: where every node's index is in range it is the
  readout `Cert.Readout.outR` of the argument arrays.
-/
import proofs.«417548_j44968307589152_3_alg».proof.Proof.RefTerm
import proofs.«417548_j44968307589152_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.Hand

open Idealize.ShloMosaic Idealize.ShloMosaic.ValueIdx Cert.ReferenceIdeal

variable {α : Type}

/-! ### The patches' flattened features -/

/-- Entry i = 16·t + f of patch p's flattened features is the mixer input at head t, patch p, feature f: the
    reshape keeps the row-major position, the transpose swaps the head and patch axes. -/
theorem patchFeat_apply (a0 : FVec Ideal S1x12x256x16 .f32) (p : Fin 256) (i : Fin 192) :
    patchFeat (F := Ideal) a0 (ix3 (0 : Fin 1) p i)
      = a0 (ix4 (0 : Fin 1) (⟨i.val / 16, by omega⟩ : Fin 12) p (⟨i.val % 16, by omega⟩ : Fin 16)) := by
  unfold patchFeat
  refine (shapeCast_apply _ _ (ix3 (0 : Fin 1) p i)
    (ix4 (0 : Fin 1) p (⟨i.val / 16, by omega⟩ : Fin 12) (⟨i.val % 16, by omega⟩ : Fin 16)) ?_).trans ?_
  · rw [Shape.rowMajor_val_four, Shape.rowMajor_val_three]
    show ((0 * 256 + p.val) * 12 + i.val / 16) * 16 + i.val % 16 = (0 * 256 + p.val) * 192 + i.val
    omega
  · exact transpose_apply _ _ _ _ _ (fun b => match b with
      | ⟨0, _⟩ => rfl | ⟨1, _⟩ => rfl | ⟨2, _⟩ => rfl | ⟨3, _⟩ => rfl)

/-! ### The broadcasts read at an index -/

/-- The index column at (n, u) is the index vector at n. -/
theorem bcast_col_apply (x : S200000.Idx → α) (n : Fin 200000) (u : Fin 1) :
    broadcastInDim S200000x1 ![0] Facts₀.bcast_S200000_S200000x1_0 x (ix2 n u) = x (ix1 n) :=
  broadcastInDim_apply _ _ _ _ _ (fun a => match a with | ⟨0, _⟩ => rfl)

/-- A per-node value broadcast over heads and features reads the node's value. -/
theorem bcast_node_apply (x : S200000.Idx → α) (z : Fin 1) (n : Fin 200000) (i : Fin 192) :
    broadcastInDim S1x200000x192 ![1] Facts₀.bcast_S200000_S1x200000x192_1 x (ix3 z n i) = x (ix1 n) :=
  broadcastInDim_apply _ _ _ _ _ (fun a => match a with | ⟨0, _⟩ => rfl)

/-- The nodes' own features under a leading unit axis. -/
theorem bcast_feat_apply (x : S200000x12.Idx → α) (z : Fin 1) (n : Fin 200000) (t : Fin 12) :
    broadcastInDim S1x200000x12 ![1, 2] Facts₀.bcast_S200000x12_S1x200000x12_1_2 x (ix3 z n t) = x (ix2 n t) :=
  broadcastInDim_apply _ _ _ _ _ (fun a => match a with | ⟨0, _⟩ => rfl | ⟨1, _⟩ => rfl)

/-- The first bias broadcast over the nodes. -/
theorem bcast_b1_apply (x : S204.Idx → α) (z : Fin 1) (n : Fin 200000) (j : Fin 204) :
    broadcastInDim S1x200000x204 ![0, 1, 2] Facts₀.bcast_S1x1x204_S1x200000x204_0_1_2
      (broadcastInDim S1x1x204 ![2] Facts₀.bcast_S204_S1x1x204_2 x) (ix3 z n j) = x (ix1 j) := by
  refine (broadcastInDim_apply _ _ _ (ix3 z n j) (ix3 (0 : Fin 1) (0 : Fin 1) j)
    (fun a => match a with | ⟨0, _⟩ => rfl | ⟨1, _⟩ => rfl | ⟨2, _⟩ => rfl)).trans ?_
  exact broadcastInDim_apply _ _ _ _ _ (fun a => match a with | ⟨0, _⟩ => rfl)

/-- The second bias broadcast over the nodes. -/
theorem bcast_b2_apply (x : S12.Idx → α) (z : Fin 1) (n : Fin 200000) (o : Fin 12) :
    broadcastInDim S1x200000x12 ![0, 1, 2] Facts₀.bcast_S1x1x12_S1x200000x12_0_1_2
      (broadcastInDim S1x1x12 ![2] Facts₀.bcast_S12_S1x1x12_2 x) (ix3 z n o) = x (ix1 o) := by
  refine (broadcastInDim_apply _ _ _ (ix3 z n o) (ix3 (0 : Fin 1) (0 : Fin 1) o)
    (fun a => match a with | ⟨0, _⟩ => rfl | ⟨1, _⟩ => rfl | ⟨2, _⟩ => rfl)).trans ?_
  exact broadcastInDim_apply _ _ _ _ _ (fun a => match a with | ⟨0, _⟩ => rfl)

/-! ### The index words -/

/-- A word that reads non-negative is not below zero. -/
theorem cmpi_slt_zero {w : BitVec 32} (h : 0 ≤ w.toInt) : IntOp.cmpi .slt w 0#32 = 0#1 := by
  unfold IntOp.cmpi
  show BitVec.ofBool (decide (w.toInt < (0#32).toInt)) = 0#1
  rw [BitVec.toInt_zero, decide_eq_false (by omega)]
  rfl

/-- A word that reads non-negative is at least zero. -/
theorem cmpi_sge_zero {w : BitVec 32} (h : 0 ≤ w.toInt) : IntOp.cmpi .sge w 0#32 = 1#1 := by
  unfold IntOp.cmpi
  show BitVec.ofBool (decide ((0#32).toInt ≤ w.toInt)) = 1#1
  rw [BitVec.toInt_zero, decide_eq_true h]
  rfl

/-- A word that reads below 256 is at most 255. -/
theorem cmpi_sle_255 {w : BitVec 32} (h : w.toInt < 256) : IntOp.cmpi .sle w 255#32 = 1#1 := by
  unfold IntOp.cmpi
  show BitVec.ofBool (decide (w.toInt ≤ (255#32).toInt)) = 1#1
  rw [show (255#32 : BitVec 32).toInt = 255 from by decide, decide_eq_true (by omega)]
  rfl

/-- Where node n's index reads non-negative the index column holds the word itself. -/
theorem takeIdx_apply (a6 : IVec S200000 32) (n : Fin 200000) (u : Fin 1) (h0 : 0 ≤ (a6 (ix1 n)).toInt) :
    takeIdx a6 (ix2 n u) = a6 (ix1 n) := by
  unfold takeIdx
  refine (bcast_col_apply _ n u).trans ?_
  show Scalar.select (IntOp.cmpi .slt (a6 (ix1 n)) 0#32) (IntOp.addi (a6 (ix1 n)) 256#32) (a6 (ix1 n)) = a6 (ix1 n)
  rw [cmpi_slt_zero h0]
  exact select_zero _ _

/-- A left fold by "and" from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    show l.foldl (fun r n => IntOp.andi r (f n)) (IntOp.andi 1#1 (f a)) = 1#1
    rw [hf a, show IntOp.andi (1#1 : BitVec 1) 1#1 = 1#1 from by decide]
    exact foldl_andi_ones f hf l

/-- Where every index is in range every node passes the range test. -/
theorem takeOk_apply (a6 : IVec S200000 32) (hr : Cert.Readout.InRange a6) (n : Fin 200000) :
    takeOk a6 (ix1 n) = 1#1 := by
  unfold takeOk
  show Host.reduce IntOp.andi _ _ _ _ (ix1 n) = 1#1
  rw [Host.reduce_eq_foldl]
  refine foldl_andi_ones _ (fun i => ?_) _
  obtain ⟨m, u, rfl⟩ : ∃ (m : Fin 200000) (u : Fin 1), i = ix2 m u := ⟨i 0, i 1, eq_ix2 i⟩
  show IntOp.andi (IntOp.cmpi .sge (takeIdx a6 (ix2 m u)) 0#32) (IntOp.cmpi .sle (takeIdx a6 (ix2 m u)) 255#32) = 1#1
  rw [takeIdx_apply a6 m u (hr m).1, cmpi_sge_zero (hr m).1, cmpi_sle_255 (hr m).2]
  decide

/-! ### The gather of patch rows read at an index -/

/-- On the leading unit axis the gather reads the result's own coordinate. -/
theorem gather_axis0 (idx : IVec S200000x1 32) (j : S1x200000x192.Idx) :
    gather_S1x256x192_S200000x1_S1x200000x192_02_1_n_n_1_1_11192.start j idx 0
      + gather_S1x256x192_S200000x1_S1x200000x192_02_1_n_n_1_1_11192.batchCoord j 0
      + gather_S1x256x192_S200000x1_S1x200000x192_02_1_n_n_1_1_11192.offCoord j 0 = (j 0).val := by
  rw [GatherDims.batchCoord_eq_zero _ _ _ List.not_mem_nil]
  unfold GatherDims.start GatherDims.offCoord
  rw [dif_neg (show ¬(0 : Fin S1x256x192.rank) ∈ gather_S1x256x192_S200000x1_S1x200000x192_02_1_n_n_1_1_11192.startIndexMap by decide),
    dif_pos (show (0 : Fin S1x256x192.rank) ∈ gather_S1x256x192_S200000x1_S1x200000x192_02_1_n_n_1_1_11192.sKept by decide)]
  show 0 + 0 + (j 0).val = (j 0).val
  omega

/-- On the feature axis the gather reads the result's own coordinate. -/
theorem gather_axis2 (idx : IVec S200000x1 32) (j : S1x200000x192.Idx) :
    gather_S1x256x192_S200000x1_S1x200000x192_02_1_n_n_1_1_11192.start j idx 2
      + gather_S1x256x192_S200000x1_S1x200000x192_02_1_n_n_1_1_11192.batchCoord j 2
      + gather_S1x256x192_S200000x1_S1x200000x192_02_1_n_n_1_1_11192.offCoord j 2 = (j 2).val := by
  rw [GatherDims.batchCoord_eq_zero _ _ _ List.not_mem_nil]
  unfold GatherDims.start GatherDims.offCoord
  rw [dif_neg (show ¬(2 : Fin S1x256x192.rank) ∈ gather_S1x256x192_S200000x1_S1x200000x192_02_1_n_n_1_1_11192.startIndexMap by decide),
    dif_pos (show (2 : Fin S1x256x192.rank) ∈ gather_S1x256x192_S200000x1_S1x200000x192_02_1_n_n_1_1_11192.sKept by decide)]
  show 0 + 0 + (j 2).val = (j 2).val
  omega

/-- On the patch axis the gather reads node n's index word, signed and clamped into 0..255. -/
theorem gather_axis1 (idx : IVec S200000x1 32) (z : Fin 1) (n : Fin 200000) (i : Fin 192) :
    gather_S1x256x192_S200000x1_S1x200000x192_02_1_n_n_1_1_11192.start (ix3 z n i) idx 1
      + gather_S1x256x192_S200000x1_S1x200000x192_02_1_n_n_1_1_11192.batchCoord (ix3 z n i) 1
      + gather_S1x256x192_S200000x1_S1x200000x192_02_1_n_n_1_1_11192.offCoord (ix3 z n i) 1
      = min (idx (ix2 n (0 : Fin 1))).toInt.toNat 255 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin S1x256x192.rank) ∈ gather_S1x256x192_S200000x1_S1x200000x192_02_1_n_n_1_1_11192.startIndexMap from
    List.mem_singleton.mpr rfl)]
  have hsi : gather_S1x256x192_S200000x1_S1x200000x192_02_1_n_n_1_1_11192.siIdx (ix3 z n i)
      ⟨List.idxOf (1 : Fin S1x256x192.rank) gather_S1x256x192_S200000x1_S1x200000x192_02_1_n_n_1_1_11192.startIndexMap,
        List.idxOf_lt_length_iff.2 (List.mem_singleton.mpr rfl)⟩ = ix2 n (0 : Fin 1) := by
    funext b; refine Fin.ext ?_
    match b with
    | ⟨0, _⟩ => rfl
    | ⟨1, _⟩ => rfl
  rw [hsi]
  rfl

/-- The gather at (0, n, i): the operand's row p, entry i, where p is node n's index word read signed and clamped
    into 0..255. -/
theorem gather_rows_apply (x : S1x256x192.Idx → α) (idx : IVec S200000x1 32) (n : Fin 200000) (i : Fin 192) (p : Fin 256)
    (hp : p.val = min (idx (ix2 n (0 : Fin 1))).toInt.toNat 255) :
    Host.gather gather_S1x256x192_S200000x1_S1x200000x192_02_1_n_n_1_1_11192 x idx (ix3 (0 : Fin 1) n i)
      = x (ix3 (0 : Fin 1) p i) := by
  unfold Host.gather
  congr 1
  funext a
  refine Fin.ext ?_
  match a with
  | ⟨0, _⟩ => exact gather_axis0 idx _
  | ⟨1, _⟩ => exact (gather_axis1 idx 0 n i).trans hp.symm
  | ⟨2, _⟩ => exact gather_axis2 idx _

/-! ### The rows' two pieces -/

/-- Below entry 192 a row reads its first piece. -/
theorem concat_left_apply (x₁ : S1x200000x192.Idx → α) (x₂ : S1x200000x12.Idx → α) (z : Fin 1) (n : Fin 200000)
    (k : Fin 204) (hk : k.val < 192) :
    concatenate S1x200000x204 2 [⟨S1x200000x192, x₁⟩, ⟨S1x200000x12, x₂⟩]
      Facts₀.concatenates_S1x200000x192_S1x200000x12_S1x200000x204_d2 (ix3 z n k) = x₁ (ix3 z n (⟨k.val, hk⟩ : Fin 192)) :=
  concatenate_pair_apply_left 2 x₁ x₂ _ (ix3 z n k) rfl (ix3 z n (⟨k.val, hk⟩ : Fin 192))
    (fun b => match b with | ⟨0, _⟩ => rfl | ⟨1, _⟩ => rfl | ⟨2, _⟩ => rfl)

/-- From entry 192 on a row reads its second piece, 192 entries back. -/
theorem concat_right_apply (x₁ : S1x200000x192.Idx → α) (x₂ : S1x200000x12.Idx → α) (z : Fin 1) (n : Fin 200000)
    (k : Fin 204) (hk : ¬k.val < 192) :
    concatenate S1x200000x204 2 [⟨S1x200000x192, x₁⟩, ⟨S1x200000x12, x₂⟩]
      Facts₀.concatenates_S1x200000x192_S1x200000x12_S1x200000x204_d2 (ix3 z n k)
      = x₂ (ix3 z n (⟨k.val - 192, by omega⟩ : Fin 12)) :=
  concatenate_pair_apply_right 2 x₁ x₂ _ (ix3 z n k) rfl rfl (ix3 z n (⟨k.val - 192, by omega⟩ : Fin 12))
    (fun b hb => match b, hb with
      | ⟨0, _⟩, _ => rfl
      | ⟨1, _⟩, _ => rfl
      | ⟨2, _⟩, hb => absurd rfl hb)
    (by show k.val - 192 + 192 = k.val; omega)

/-! ### The first product's operand indices, axis by axis -/

theorem dotW1_lhs0 (i : S1x200000x204.Idx) (q : dot_S1x200000x204_S204x204_S1x200000x204_2_0_01_1_n_n.contr.Idx) :
    (dot_S1x200000x204_S204x204_S1x200000x204_2_0_01_1_n_n.lhsIdx i q 0).val = (i 0).val := by
  unfold DotDims.lhsIdx
  rw [dif_neg (show ¬(0 : Fin S1x200000x204.rank) ∈ dot_S1x200000x204_S204x204_S1x200000x204_2_0_01_1_n_n.lhsBatch by decide),
    dif_pos (show (0 : Fin S1x200000x204.rank) ∈ dot_S1x200000x204_S204x204_S1x200000x204_2_0_01_1_n_n.lhsNonContracting by decide)]
  rfl

theorem dotW1_lhs1 (i : S1x200000x204.Idx) (q : dot_S1x200000x204_S204x204_S1x200000x204_2_0_01_1_n_n.contr.Idx) :
    (dot_S1x200000x204_S204x204_S1x200000x204_2_0_01_1_n_n.lhsIdx i q 1).val = (i 1).val := by
  unfold DotDims.lhsIdx
  rw [dif_neg (show ¬(1 : Fin S1x200000x204.rank) ∈ dot_S1x200000x204_S204x204_S1x200000x204_2_0_01_1_n_n.lhsBatch by decide),
    dif_pos (show (1 : Fin S1x200000x204.rank) ∈ dot_S1x200000x204_S204x204_S1x200000x204_2_0_01_1_n_n.lhsNonContracting by decide)]
  rfl

theorem dotW1_lhs2 (i : S1x200000x204.Idx) (q : dot_S1x200000x204_S204x204_S1x200000x204_2_0_01_1_n_n.contr.Idx) :
    (dot_S1x200000x204_S204x204_S1x200000x204_2_0_01_1_n_n.lhsIdx i q 2).val = (q ⟨0, by decide⟩).val :=
  dot_S1x200000x204_S204x204_S1x200000x204_2_0_01_1_n_n.lhsIdx_val_of_single rfl i q

theorem dotW1_rhs0 (i : S1x200000x204.Idx) (q : dot_S1x200000x204_S204x204_S1x200000x204_2_0_01_1_n_n.contr.Idx) :
    (dot_S1x200000x204_S204x204_S1x200000x204_2_0_01_1_n_n.rhsIdx i q 0).val = (q ⟨0, by decide⟩).val :=
  dot_S1x200000x204_S204x204_S1x200000x204_2_0_01_1_n_n.rhsIdx_val_of_single rfl i q

theorem dotW1_rhs1 (i : S1x200000x204.Idx) (q : dot_S1x200000x204_S204x204_S1x200000x204_2_0_01_1_n_n.contr.Idx) :
    (dot_S1x200000x204_S204x204_S1x200000x204_2_0_01_1_n_n.rhsIdx i q 1).val = (i 2).val := by
  unfold DotDims.rhsIdx
  rw [dif_neg (show ¬(1 : Fin S204x204.rank) ∈ dot_S1x200000x204_S204x204_S1x200000x204_2_0_01_1_n_n.rhsBatch by decide),
    dif_pos (show (1 : Fin S204x204.rank) ∈ dot_S1x200000x204_S204x204_S1x200000x204_2_0_01_1_n_n.rhsNonContracting by decide)]
  rfl

/-- The first product at (z, n, j): the row of node n against column j of the first weights. -/
theorem dotW1_apply (X : FVec Ideal S1x200000x204 .f32) (W : FVec Ideal S204x204 .f32) (z : Fin 1) (n : Fin 200000) (j : Fin 204) :
    Host.dotGeneral (F := Ideal) dot_S1x200000x204_S204x204_S1x200000x204_2_0_01_1_n_n none X W (ix3 z n j) = ∑ k : Fin 204, X (ix3 z n k) * W (ix2 k j) := by
  simp only [Host.dotGeneral]
  rw [Ideal.dotGeneral_apply, ← Equiv.sum_comp (contrEquiv1 dot_S1x200000x204_S204x204_S1x200000x204_2_0_01_1_n_n 204 rfl rfl).symm]
  refine Finset.sum_congr rfl fun k _ => ?_
  have hk := contrEquiv1_symm_val dot_S1x200000x204_S204x204_S1x200000x204_2_0_01_1_n_n 204 rfl rfl k
  have el : dot_S1x200000x204_S204x204_S1x200000x204_2_0_01_1_n_n.lhsIdx (ix3 z n j) ((contrEquiv1 dot_S1x200000x204_S204x204_S1x200000x204_2_0_01_1_n_n 204 rfl rfl).symm k) = ix3 z n k :=
    funext fun a => Fin.ext (by
      match a with
      | ⟨0, _⟩ => exact dotW1_lhs0 _ _
      | ⟨1, _⟩ => exact dotW1_lhs1 _ _
      | ⟨2, _⟩ => exact (dotW1_lhs2 _ _).trans hk)
  have er : dot_S1x200000x204_S204x204_S1x200000x204_2_0_01_1_n_n.rhsIdx (ix3 z n j) ((contrEquiv1 dot_S1x200000x204_S204x204_S1x200000x204_2_0_01_1_n_n 204 rfl rfl).symm k) = ix2 k j :=
    funext fun a => Fin.ext (by
      match a with
      | ⟨0, _⟩ => exact (dotW1_rhs0 _ _).trans hk
      | ⟨1, _⟩ => exact dotW1_rhs1 _ _)
  rw [el, er]

/-! ### The second product's operand indices, axis by axis -/

theorem dotW2_lhs0 (i : S1x200000x12.Idx) (q : dot_S1x200000x204_S204x12_S1x200000x12_2_0_01_1_n_n.contr.Idx) :
    (dot_S1x200000x204_S204x12_S1x200000x12_2_0_01_1_n_n.lhsIdx i q 0).val = (i 0).val := by
  unfold DotDims.lhsIdx
  rw [dif_neg (show ¬(0 : Fin S1x200000x204.rank) ∈ dot_S1x200000x204_S204x12_S1x200000x12_2_0_01_1_n_n.lhsBatch by decide),
    dif_pos (show (0 : Fin S1x200000x204.rank) ∈ dot_S1x200000x204_S204x12_S1x200000x12_2_0_01_1_n_n.lhsNonContracting by decide)]
  rfl

theorem dotW2_lhs1 (i : S1x200000x12.Idx) (q : dot_S1x200000x204_S204x12_S1x200000x12_2_0_01_1_n_n.contr.Idx) :
    (dot_S1x200000x204_S204x12_S1x200000x12_2_0_01_1_n_n.lhsIdx i q 1).val = (i 1).val := by
  unfold DotDims.lhsIdx
  rw [dif_neg (show ¬(1 : Fin S1x200000x204.rank) ∈ dot_S1x200000x204_S204x12_S1x200000x12_2_0_01_1_n_n.lhsBatch by decide),
    dif_pos (show (1 : Fin S1x200000x204.rank) ∈ dot_S1x200000x204_S204x12_S1x200000x12_2_0_01_1_n_n.lhsNonContracting by decide)]
  rfl

theorem dotW2_lhs2 (i : S1x200000x12.Idx) (q : dot_S1x200000x204_S204x12_S1x200000x12_2_0_01_1_n_n.contr.Idx) :
    (dot_S1x200000x204_S204x12_S1x200000x12_2_0_01_1_n_n.lhsIdx i q 2).val = (q ⟨0, by decide⟩).val :=
  dot_S1x200000x204_S204x12_S1x200000x12_2_0_01_1_n_n.lhsIdx_val_of_single rfl i q

theorem dotW2_rhs0 (i : S1x200000x12.Idx) (q : dot_S1x200000x204_S204x12_S1x200000x12_2_0_01_1_n_n.contr.Idx) :
    (dot_S1x200000x204_S204x12_S1x200000x12_2_0_01_1_n_n.rhsIdx i q 0).val = (q ⟨0, by decide⟩).val :=
  dot_S1x200000x204_S204x12_S1x200000x12_2_0_01_1_n_n.rhsIdx_val_of_single rfl i q

theorem dotW2_rhs1 (i : S1x200000x12.Idx) (q : dot_S1x200000x204_S204x12_S1x200000x12_2_0_01_1_n_n.contr.Idx) :
    (dot_S1x200000x204_S204x12_S1x200000x12_2_0_01_1_n_n.rhsIdx i q 1).val = (i 2).val := by
  unfold DotDims.rhsIdx
  rw [dif_neg (show ¬(1 : Fin S204x12.rank) ∈ dot_S1x200000x204_S204x12_S1x200000x12_2_0_01_1_n_n.rhsBatch by decide),
    dif_pos (show (1 : Fin S204x12.rank) ∈ dot_S1x200000x204_S204x12_S1x200000x12_2_0_01_1_n_n.rhsNonContracting by decide)]
  rfl

/-- The second product at (z, n, o): the hidden row of node n against column o of the second weights. -/
theorem dotW2_apply (X : FVec Ideal S1x200000x204 .f32) (W : FVec Ideal S204x12 .f32) (z : Fin 1) (n : Fin 200000) (o : Fin 12) :
    Host.dotGeneral (F := Ideal) dot_S1x200000x204_S204x12_S1x200000x12_2_0_01_1_n_n none X W (ix3 z n o) = ∑ k : Fin 204, X (ix3 z n k) * W (ix2 k o) := by
  simp only [Host.dotGeneral]
  rw [Ideal.dotGeneral_apply, ← Equiv.sum_comp (contrEquiv1 dot_S1x200000x204_S204x12_S1x200000x12_2_0_01_1_n_n 204 rfl rfl).symm]
  refine Finset.sum_congr rfl fun k _ => ?_
  have hk := contrEquiv1_symm_val dot_S1x200000x204_S204x12_S1x200000x12_2_0_01_1_n_n 204 rfl rfl k
  have el : dot_S1x200000x204_S204x12_S1x200000x12_2_0_01_1_n_n.lhsIdx (ix3 z n o) ((contrEquiv1 dot_S1x200000x204_S204x12_S1x200000x12_2_0_01_1_n_n 204 rfl rfl).symm k) = ix3 z n k :=
    funext fun a => Fin.ext (by
      match a with
      | ⟨0, _⟩ => exact dotW2_lhs0 _ _
      | ⟨1, _⟩ => exact dotW2_lhs1 _ _
      | ⟨2, _⟩ => exact (dotW2_lhs2 _ _).trans hk)
  have er : dot_S1x200000x204_S204x12_S1x200000x12_2_0_01_1_n_n.rhsIdx (ix3 z n o) ((contrEquiv1 dot_S1x200000x204_S204x12_S1x200000x12_2_0_01_1_n_n 204 rfl rfl).symm k) = ix2 k o :=
    funext fun a => Fin.ext (by
      match a with
      | ⟨0, _⟩ => exact (dotW2_rhs0 _ _).trans hk
      | ⟨1, _⟩ => exact dotW2_rhs1 _ _)
  rw [el, er]

/-! ### The stages composed -/

/-- Where the indices are in range the gathered row of node n is its patch's flattened features. -/
theorem takeOut_apply (a0 : FVec Ideal S1x12x256x16 .f32) (a6 : IVec S200000 32) (hr : Cert.Readout.InRange a6)
    (n : Fin 200000) (i : Fin 192) :
    takeOut (F := Ideal) a0 a6 (ix3 (0 : Fin 1) n i) = Cert.Readout.pfeat a0 (Cert.Readout.pidx (a6 (ix1 n))) i := by
  unfold takeOut
  refine (select_apply _ _ _ _).trans ?_
  rw [bcast_node_apply, takeOk_apply a6 hr n, select_one,
    gather_rows_apply _ _ n i (Cert.Readout.pidx (a6 (ix1 n))) (by rw [takeIdx_apply a6 n 0 (hr n).1]; rfl)]
  exact patchFeat_apply a0 _ i

/-- Node n's input row: its patch's features, then its own. -/
theorem rows_apply (a0 : FVec Ideal S1x12x256x16 .f32) (a1 : FVec Ideal S200000x12 .f32) (a6 : IVec S200000 32)
    (hr : Cert.Readout.InRange a6) (n : Fin 200000) (k : Fin 204) :
    rows (F := Ideal) a0 a1 a6 (ix3 (0 : Fin 1) n k) = Cert.Readout.xrow a0 a1 (Cert.Readout.pidx (a6 (ix1 n))) n k := by
  unfold rows Cert.Readout.xrow
  by_cases hk : k.val < 192
  · rw [dif_pos hk, concat_left_apply _ _ _ _ k hk]
    exact takeOut_apply a0 a6 hr n ⟨k.val, hk⟩
  · rw [dif_neg hk, concat_right_apply _ _ _ _ k hk]
    exact bcast_feat_apply a1 _ n _

/-- The hidden layer at node n, unit j. -/
theorem hidden_apply (a0 : FVec Ideal S1x12x256x16 .f32) (a1 : FVec Ideal S200000x12 .f32) (a2 : FVec Ideal S204x204 .f32)
    (a3 : FVec Ideal S204 .f32) (a6 : IVec S200000 32) (hr : Cert.Readout.InRange a6) (n : Fin 200000) (j : Fin 204) :
    hidden (F := Ideal) a0 a1 a2 a3 a6 (ix3 (0 : Fin 1) n j)
      = Cert.Readout.hidR a0 a1 a2 a3 (Cert.Readout.pidx (a6 (ix1 n))) n j := by
  unfold hidden Cert.Readout.hidR
  rw [maximumf_apply, addf_apply, dotW1_apply, bcast_b1_apply]
  refine congrArg₂ max (congrArg (· + a3 (ix1 j)) ?_) ?_
  · exact Finset.sum_congr rfl fun k _ => by rw [rows_apply a0 a1 a6 hr n k]
  · exact (broadcastInDim_apply _ _ _ _ ix0 (fun a => a.elim0)).trans ((constant_apply _ _).trans Ideal.ofBits_zero_f32)

/-! ### The result -/

/-- Where every node's index is in range, the reference's result at (0, n, o) is the readout there: the second
    product of node n's hidden row, plus the second bias. -/
theorem refOut_eq_outR (a0 : FVec Ideal S1x12x256x16 .f32) (a1 : FVec Ideal S200000x12 .f32) (a2 : FVec Ideal S204x204 .f32)
    (a3 : FVec Ideal S204 .f32) (a4 : FVec Ideal S204x12 .f32) (a5 : FVec Ideal S12 .f32) (a6 : IVec S200000 32)
    (hr : Cert.Readout.InRange a6) :
    refOut (F := Ideal) a0 a1 a2 a3 a4 a5 a6 = Cert.Readout.outR a0 a1 a2 a3 a4 a5 a6 := by
  funext y
  obtain ⟨z, n, o, rfl⟩ : ∃ (z : Fin 1) (n : Fin 200000) (o : Fin 12), y = ix3 z n o := ⟨y 0, y 1, y 2, eq_ix3 y⟩
  obtain rfl : z = 0 := Subsingleton.elim _ _
  show refOut (F := Ideal) a0 a1 a2 a3 a4 a5 a6 (ix3 (0 : Fin 1) n o) = Cert.Readout.outRAt a0 a1 a2 a3 a4 a5 a6 n o
  unfold refOut Cert.Readout.outRAt
  rw [addf_apply, dotW2_apply, bcast_b2_apply]
  refine congrArg (· + a5 (ix1 o)) ?_
  exact Finset.sum_congr rfl fun j _ => by rw [hidden_apply a0 a1 a2 a3 a6 hr n j]

end Cert.ReferenceIdeal.Hand

end
-- ==== Proof.RefValue.lean ====
/-
  The reference program at the ideal values: it runs to the end, leaves its arguments as they were, and where every
  node's index is in range its result array is the readout `Cert.Readout.outR` of the argument arrays.
-/
import proofs.«417548_j44968307589152_3_alg».proof.Defs
import proofs.«417548_j44968307589152_3_alg».proof.Proof.Gen.ReferenceIdeal
import proofs.«417548_j44968307589152_3_alg».proof.Proof.Gen.Pre_finite_inputs
import proofs.«417548_j44968307589152_3_alg».proof.Proof.Spec
import proofs.«417548_j44968307589152_3_alg».proof.Proof.RefRun
import proofs.«417548_j44968307589152_3_alg».proof.Proof.RefRead

noncomputable section

namespace Cert.ReferenceIdeal.Hand

open Idealize.ShloMosaic Idealize.SL.Sem Cert.ReferenceIdeal

/-- The run's result term is the readout where the indices are in range. -/
theorem run_value (m : (ℓ : Loc nD τ sig) → Buf (Elt Ideal) ℓ) (ρ : Dev nD → PrngReg)
    (hr : ∀ c : Dev nD, Cert.Readout.InRange (m ((c.tc : Thread nD τ).loc main_arg6))) :
    θ_run (defs (F := Ideal)) (onTc (τ := τ) (main (F := Ideal))) ⟨m, fun _ => 0, ρ⟩ (fun r => ∀ c : Dev nD,
      r.2.mem ((c.tc : Thread nD τ).loc main_v13) = Cert.Readout.outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono (fun _ h c => ⟨(h c).1.trans (refOut_eq_outR _ _ _ _ _ _ _ (hr c)), (h c).2⟩)
    (run_term (F := Ideal) m ρ)

/-- The frame: the run with the result dropped. -/
theorem frame : Cert.frame_ReferenceIdeal := fun m ρ _ =>
  (θ_run (defs (F := Ideal)) _ _).mono (fun _ h c => (h c).2) (run_term (F := Ideal) m ρ)

end Cert.ReferenceIdeal.Hand

end
-- ==== Proof.lean ====
/-
  The claim: the word-level kernel program, its idealization and the idealized reference each run to the end without a
  fault and leave their arguments unchanged; the idealization rewrote nothing; and, where every float input is finite
  and every node's patch index lies in 0..255, the idealized kernel program and the idealized reference end with the
  same result array at the extended reals.

  The kernel program folds the patch part of the first layer and its bias into a 256-row table on the host, selects a
  node's row by a one-hot matrix product (the index clamped into 0..255), adds the node's own twelve features times the
  last twelve rows of W1, applies relu and multiplies by W2 from the left, 4096 nodes at a time; the last of the 49
  blocks overhangs the arrays by 704 columns, which are fetched as unnamed words and never written back.  The
  reference gathers each node's patch row (negative indices wrapped, out-of-range ones filled with NaN: both
  inactive for indices in range), concatenates, and applies the two layers directly.  Both are the readout of
  `Proof/Spec.lean`, in its two arrangements, which agree on every extended real.
-/
import proofs.«417548_j44968307589152_3_alg».proof.Defs
import proofs.«417548_j44968307589152_3_alg».proof.Proof.Gen.Kernel
import proofs.«417548_j44968307589152_3_alg».proof.Proof.Gen.KernelIdeal
import proofs.«417548_j44968307589152_3_alg».proof.Proof.Gen.ReferenceIdeal
import proofs.«417548_j44968307589152_3_alg».proof.Proof.Gen.Pre_finite_inputs
import proofs.«417548_j44968307589152_3_alg».proof.Proof.Spec
import proofs.«417548_j44968307589152_3_alg».proof.Proof.PreRange
import proofs.«417548_j44968307589152_3_alg».proof.Proof.KFrameBits
import proofs.«417548_j44968307589152_3_alg».proof.Proof.KValue
import proofs.«417548_j44968307589152_3_alg».proof.Proof.RefValue
import Idealize.ShloMosaic.Adequacy
import Idealize.ShloMosaic.Init

noncomputable section

namespace Cert.Proof

open Idealize.ShloMosaic Idealize.SL.Sem

/-- The idealized kernel program's frame: its value run with the result dropped. -/
theorem frame_ki : Cert.frame_KernelIdeal := fun m ρ _ =>
  (θ_run Cert.KernelIdeal.defs _ _).mono (fun _ h c => (h c).2) (Cert.KernelIdeal.Hand.run_value m ρ)

/-- Both idealized programs end at the readout of arguments that agree: the kernel program at its table arrangement,
    the reference, whose indices the precondition keeps in range, at the direct one. -/
theorem algebraic : Cert.algebraic_KernelIdeal_ReferenceIdeal := by
  intro m ρ m' ρ' hpre hagree
  refine ⟨_, Cert.KernelIdeal.Hand.run_value m ρ, ?_⟩
  have hr : ∀ c : Dev Cert.ReferenceIdeal.nD,
      Cert.Readout.InRange (m' ((c.tc : Thread Cert.ReferenceIdeal.nD Cert.ReferenceIdeal.τ).loc Cert.ReferenceIdeal.main_arg6)) := fun c => by
    rw [(hagree c).2.2.2.2.2.2]
    exact Cert.Hand.patch_range _ _ _ _ _ _ _ (hpre c)
  refine (θ_run Cert.ReferenceIdeal.defs _ _).mono (fun _ h c => ⟨(h c).1.trans ?_, (h c).2⟩)
    (Cert.ReferenceIdeal.Hand.run_value m' ρ' hr)
  rw [(hagree c).1, (hagree c).2.1, (hagree c).2.2.1, (hagree c).2.2.2.1, (hagree c).2.2.2.2.1, (hagree c).2.2.2.2.2.1,
    (hagree c).2.2.2.2.2.2]
  exact (Cert.Readout.outK_eq_outR _ _ _ _ _ _ _).symm

theorem claim : Cert.Claim := ⟨Cert.Kernel.Gen.facts, Cert.KernelIdeal.Gen.facts, Cert.ReferenceIdeal.Gen.facts, Cert.Pre_finite_inputs.Gen.facts,
  Cert.Kernel.Hand.frame, frame_ki, Cert.ReferenceIdeal.Hand.frame, trivial, algebraic⟩

end Cert.Proof

end
